-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x64 : Shape := ⟨3, ![8, 512, 64]⟩
abbrev S1x4 : Shape := ⟨2, ![1, 4]⟩
abbrev S4 : Shape := ⟨1, ![4]⟩
abbrev S_ : Shape := ⟨0, ![]⟩

class Facts : Prop where
  bcast_S_S8x512x64 : S_.BroadcastsInDim S8x512x64 (![] : Fin 0 → Fin S8x512x64.rank)
  reducesTo_S8x512x64_S_d0_1_2 : S8x512x64.ReducesTo [0, 1, 2] S_
  h_S_ : 0 < S_.numel
  bcast_S_S1x4 : S_.BroadcastsInDim S1x4 (![] : Fin 0 → Fin S1x4.rank)
  reducesTo_S1x4_S_d0_1 : S1x4.ReducesTo [0, 1] S_
  bcast_S_S4 : S_.BroadcastsInDim S4 (![] : Fin 0 → Fin S4.rank)
  reducesTo_S4_S_d0 : S4.ReducesTo [0] S_

variable [Facts]

def fn {F : FTy → Type} [FloatOps F] (main_arg0 : FVec F S8x512x64 .f32) (main_arg1 : FVec F S1x4 .f32) (main_arg2 : FVec F S4 .f32) : IVec S_ 1 :=
  let main_v0 : FVec F S8x512x64 .f32 := Host.absf main_arg0
  let main_cst : FVec F S_ .f32 := constant S_ .f32 0x7F800000#32
  let main_v1 : FVec F S8x512x64 .f32 := broadcastInDim S8x512x64 ![] bcast_S_S8x512x64 main_cst
  let main_v2 : IVec S8x512x64 1 := cmpf .olt main_v0 main_v1
  let main_c : IVec S_ 1 := constantI S_ 1 1#1
  let main_v3 : IVec S_ 1 := (fun x v => Host.reduce IntOp.andi x v reducesTo_S8x512x64_S_d0_1_2 h_S_) main_v2 main_c
  let main_v4 : FVec F S1x4 .f32 := Host.absf main_arg1
  let main_cst_0 : FVec F S_ .f32 := constant S_ .f32 0x7F800000#32
  let main_v5 : FVec F S1x4 .f32 := broadcastInDim S1x4 ![] bcast_S_S1x4 main_cst_0
  let main_v6 : IVec S1x4 1 := cmpf .olt main_v4 main_v5
  let main_c_1 : IVec S_ 1 := constantI S_ 1 1#1
  let main_v7 : IVec S_ 1 := (fun x v => Host.reduce IntOp.andi x v reducesTo_S1x4_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  main_v13
-- ==== Kernel.lean ====
abbrev S8x512x64 : Shape := ⟨3, ![8, 512, 64]⟩
abbrev S1x4 : Shape := ⟨2, ![1, 4]⟩
abbrev S4 : Shape := ⟨1, ![4]⟩
abbrev S4x512x64 : Shape := ⟨3, ![4, 512, 64]⟩
abbrev S4x64x512 : Shape := ⟨3, ![4, 64, 512]⟩
abbrev S4x4 : Shape := ⟨2, ![4, 4]⟩
abbrev S1x512x64 : Shape := ⟨3, ![1, 512, 64]⟩
abbrev S512x64 : Shape := ⟨2, ![512, 64]⟩
abbrev S1x64x512 : Shape := ⟨3, ![1, 64, 512]⟩
abbrev S64x512 : Shape := ⟨2, ![64, 512]⟩
abbrev S512x512 : Shape := ⟨2, ![512, 512]⟩
abbrev S512x1 : Shape := ⟨2, ![512, 1]⟩
abbrev S512 : Shape := ⟨1, ![512]⟩
abbrev S1x512 : Shape := ⟨2, ![1, 512]⟩
abbrev S1 : Shape := ⟨1, ![1]⟩
abbrev S1x1 : Shape := ⟨2, ![1, 1]⟩

abbrev nBuf : Space → Nat
  | .hbm => 8
  | .vmem => 5
  | .smem => 0
  | _ => 0

abbrev bufTy : (tb : Table) → Fin (tcTables nBuf tb) → BufTy
  | .hbm, ⟨0, _⟩ => ⟨S8x512x64, .f32⟩
  | .hbm, ⟨1, _⟩ => ⟨S1x4, .f32⟩
  | .hbm, ⟨2, _⟩ => ⟨S4, .f32⟩
  | .hbm, ⟨3, _⟩ => ⟨S4x512x64, .f32⟩
  | .hbm, ⟨4, _⟩ => ⟨S4x512x64, .f32⟩
  | .hbm, ⟨5, _⟩ => ⟨S4x64x512, .f32⟩
  | .hbm, ⟨6, _⟩ => ⟨S1x4, .f32⟩
  | .hbm, ⟨7, _⟩ => ⟨S4x4, .f32⟩
  | .local _ .vmem, ⟨0, _⟩ => ⟨S4x512x64, .f32⟩
  | .local _ .vmem, ⟨1, _⟩ => ⟨S4x64x512, .f32⟩
  | .local _ .vmem, ⟨2, _⟩ => ⟨S1x4, .f32⟩
  | .local _ .vmem, ⟨3, _⟩ => ⟨S1x4, .f32⟩
  | .local _ .vmem, ⟨4, _⟩ => ⟨S4x4, .f32⟩
  | _, _ => ⟨S8x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  slices_S8x512x64_S4x512x64_0_0_0 : S8x512x64.Slices ![0, 0, 0] S4x512x64
  slices_S8x512x64_S4x512x64_4_0_0 : S8x512x64.Slices ![4, 0, 0] S4x512x64
  transposes_S4x512x64_S4x64x512_0_2_1 : S4x512x64.Transposes [0, 2, 1] S4x64x512
  shapeCasts_S4_S1x4 : S4.ShapeCasts S1x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  inb_S4x512x64_S1x512x64_0_0_0 : ∀ a, (![0, 0, 0] : Fin 3 → Nat) a + S1x512x64.size a ≤ S4x512x64.size a
  h_S1x512x64 : 0 < S1x512x64.numel
  shapeCasts_S1x512x64_S512x64 : S1x512x64.ShapeCasts S512x64
  inb_S4x64x512_S1x64x512_0_0_0 : ∀ a, (![0, 0, 0] : Fin 3 → Nat) a + S1x64x512.size a ≤ S4x64x512.size a
  h_S1x64x512 : 0 < S1x64x512.numel
  shapeCasts_S1x64x512_S64x512 : S1x64x512.ShapeCasts S64x512
  slices_S512x64_o0_0_S512x1 : S512x64.Slices ![0, 0] S512x1
  shapeCasts_S512x1_S512 : S512x1.ShapeCasts S512
  slices_S64x512_o0_0_S1x512 : S64x512.Slices ![0, 0] S1x512
  shapeCasts_S1x512_S512 : S1x512.ShapeCasts S512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  slices_S512x64_o0_1_S512x1 : S512x64.Slices ![0, 1] S512x1
  slices_S64x512_o1_0_S1x512 : S64x512.Slices ![1, 0] S1x512
  slices_S512x64_o0_2_S512x1 : S512x64.Slices ![0, 2] S512x1
  slices_S64x512_o2_0_S1x512 : S64x512.Slices ![2, 0] S1x512
  slices_S512x64_o0_3_S512x1 : S512x64.Slices ![0, 3] S512x1
  slices_S64x512_o3_0_S1x512 : S64x512.Slices ![3, 0] S1x512
  slices_S512x64_o0_4_S512x1 : S512x64.Slices ![0, 4] S512x1
  slices_S64x512_o4_0_S1x512 : S64x512.Slices ![4, 0] S1x512
  slices_S512x64_o0_5_S512x1 : S512x64.Slices ![0, 5] S512x1
  slices_S64x512_o5_0_S1x512 : S64x512.Slices ![5, 0] S1x512
  slices_S512x64_o0_6_S512x1 : S512x64.Slices ![0, 6] S512x1
  slices_S64x512_o6_0_S1x512 : S64x512.Slices ![6, 0] S1x512
  slices_S512x64_o0_7_S512x1 : S512x64.Slices ![0, 7] S512x1
  slices_S64x512_o7_0_S1x512 : S64x512.Slices ![7, 0] S1x512
  slices_S512x64_o0_8_S512x1 : S512x64.Slices ![0, 8] S512x1
  slices_S64x512_o8_0_S1x512 : S64x512.Slices ![8, 0] S1x512
  slices_S512x64_o0_9_S512x1 : S512x64.Slices ![0, 9] S512x1
  slices_S64x512_o9_0_S1x512 : S64x512.Slices ![9, 0] S1x512
  slices_S512x64_o0_10_S512x1 : S512x64.Slices ![0, 10] S512x1
  slices_S64x512_o10_0_S1x512 : S64x512.Slices ![10, 0] S1x512
  slices_S512x64_o0_11_S512x1 : S512x64.Slices ![0, 11] S512x1
  slices_S64x512_o11_0_S1x512 : S64x512.Slices ![11, 0] S1x512
  slices_S512x64_o0_12_S512x1 : S512x64.Slices ![0, 12] S512x1
  slices_S64x512_o12_0_S1x512 : S64x512.Slices ![12, 0] S1x512
  slices_S512x64_o0_13_S512x1 : S512x64.Slices ![0, 13] S512x1
  slices_S64x512_o13_0_S1x512 : S64x512.Slices ![13, 0] S1x512
  slices_S512x64_o0_14_S512x1 : S512x64.Slices ![0, 14] S512x1
  slices_S64x512_o14_0_S1x512 : S64x512.Slices ![14, 0] S1x512
  slices_S512x64_o0_15_S512x1 : S512x64.Slices ![0, 15] S512x1
  slices_S64x512_o15_0_S1x512 : S64x512.Slices ![15, 0] S1x512
  slices_S512x64_o0_16_S512x1 : S512x64.Slices ![0, 16] S512x1
  slices_S64x512_o16_0_S1x512 : S64x512.Slices ![16, 0] S1x512
  slices_S512x64_o0_17_S512x1 : S512x64.Slices ![0, 17] S512x1
  slices_S64x512_o17_0_S1x512 : S64x512.Slices ![17, 0] S1x512
  slices_S512x64_o0_18_S512x1 : S512x64.Slices ![0, 18] S512x1
  slices_S64x512_o18_0_S1x512 : S64x512.Slices ![18, 0] S1x512
  slices_S512x64_o0_19_S512x1 : S512x64.Slices ![0, 19] S512x1
  slices_S64x512_o19_0_S1x512 : S64x512.Slices ![19, 0] S1x512
  slices_S512x64_o0_20_S512x1 : S512x64.Slices ![0, 20] S512x1
  slices_S64x512_o20_0_S1x512 : S64x512.Slices ![20, 0] S1x512
  slices_S512x64_o0_21_S512x1 : S512x64.Slices ![0, 21] S512x1
  slices_S64x512_o21_0_S1x512 : S64x512.Slices ![21, 0] S1x512
  slices_S512x64_o0_22_S512x1 : S512x64.Slices ![0, 22] S512x1
  slices_S64x512_o22_0_S1x512 : S64x512.Slices ![22, 0] S1x512
  slices_S512x64_o0_23_S512x1 : S512x64.Slices ![0, 23] S512x1
  slices_S64x512_o23_0_S1x512 : S64x512.Slices ![23, 0] S1x512
  slices_S512x64_o0_24_S512x1 : S512x64.Slices ![0, 24] S512x1
  slices_S64x512_o24_0_S1x512 : S64x512.Slices ![24, 0] S1x512
  slices_S512x64_o0_25_S512x1 : S512x64.Slices ![0, 25] S512x1
  slices_S64x512_o25_0_S1x512 : S64x512.Slices ![25, 0] S1x512
  slices_S512x64_o0_26_S512x1 : S512x64.Slices ![0, 26] S512x1
  slices_S64x512_o26_0_S1x512 : S64x512.Slices ![26, 0] S1x512
  slices_S512x64_o0_27_S512x1 : S512x64.Slices ![0, 27] S512x1
  slices_S64x512_o27_0_S1x512 : S64x512.Slices ![27, 0] S1x512
  slices_S512x64_o0_28_S512x1 : S512x64.Slices ![0, 28] S512x1
  slices_S64x512_o28_0_S1x512 : S64x512.Slices ![28, 0] S1x512
  slices_S512x64_o0_29_S512x1 : S512x64.Slices ![0, 29] S512x1
  slices_S64x512_o29_0_S1x512 : S64x512.Slices ![29, 0] S1x512
  slices_S512x64_o0_30_S512x1 : S512x64.Slices ![0, 30] S512x1
  slices_S64x512_o30_0_S1x512 : S64x512.Slices ![30, 0] S1x512
  slices_S512x64_o0_31_S512x1 : S512x64.Slices ![0, 31] S512x1
  slices_S64x512_o31_0_S1x512 : S64x512.Slices ![31, 0] S1x512
  slices_S512x64_o0_32_S512x1 : S512x64.Slices ![0, 32] S512x1
  slices_S64x512_o32_0_S1x512 : S64x512.Slices ![32, 0] S1x512
  slices_S512x64_o0_33_S512x1 : S512x64.Slices ![0, 33] S512x1
  slices_S64x512_o33_0_S1x512 : S64x512.Slices ![33, 0] S1x512
  slices_S512x64_o0_34_S512x1 : S512x64.Slices ![0, 34] S512x1
  slices_S64x512_o34_0_S1x512 : S64x512.Slices ![34, 0] S1x512
  slices_S512x64_o0_35_S512x1 : S512x64.Slices ![0, 35] S512x1
  slices_S64x512_o35_0_S1x512 : S64x512.Slices ![35, 0] S1x512
  slices_S512x64_o0_36_S512x1 : S512x64.Slices ![0, 36] S512x1
  slices_S64x512_o36_0_S1x512 : S64x512.Slices ![36, 0] S1x512
  slices_S512x64_o0_37_S512x1 : S512x64.Slices ![0, 37] S512x1
  slices_S64x512_o37_0_S1x512 : S64x512.Slices ![37, 0] S1x512
  slices_S512x64_o0_38_S512x1 : S512x64.Slices ![0, 38] S512x1
  slices_S64x512_o38_0_S1x512 : S64x512.Slices ![38, 0] S1x512
  slices_S512x64_o0_39_S512x1 : S512x64.Slices ![0, 39] S512x1
  slices_S64x512_o39_0_S1x512 : S64x512.Slices ![39, 0] S1x512
  slices_S512x64_o0_40_S512x1 : S512x64.Slices ![0, 40] S512x1
  slices_S64x512_o40_0_S1x512 : S64x512.Slices ![40, 0] S1x512
  slices_S512x64_o0_41_S512x1 : S512x64.Slices ![0, 41] S512x1
  slices_S64x512_o41_0_S1x512 : S64x512.Slices ![41, 0] S1x512
  slices_S512x64_o0_42_S512x1 : S512x64.Slices ![0, 42] S512x1
  slices_S64x512_o42_0_S1x512 : S64x512.Slices ![42, 0] S1x512
  slices_S512x64_o0_43_S512x1 : S512x64.Slices ![0, 43] S512x1
  slices_S64x512_o43_0_S1x512 : S64x512.Slices ![43, 0] S1x512
  slices_S512x64_o0_44_S512x1 : S512x64.Slices ![0, 44] S512x1
  slices_S64x512_o44_0_S1x512 : S64x512.Slices ![44, 0] S1x512
  slices_S512x64_o0_45_S512x1 : S512x64.Slices ![0, 45] S512x1
  slices_S64x512_o45_0_S1x512 : S64x512.Slices ![45, 0] S1x512
  slices_S512x64_o0_46_S512x1 : S512x64.Slices ![0, 46] S512x1
  slices_S64x512_o46_0_S1x512 : S64x512.Slices ![46, 0] S1x512
  slices_S512x64_o0_47_S512x1 : S512x64.Slices ![0, 47] S512x1
  slices_S64x512_o47_0_S1x512 : S64x512.Slices ![47, 0] S1x512
  slices_S512x64_o0_48_S512x1 : S512x64.Slices ![0, 48] S512x1
  slices_S64x512_o48_0_S1x512 : S64x512.Slices ![48, 0] S1x512
  slices_S512x64_o0_49_S512x1 : S512x64.Slices ![0, 49] S512x1
  slices_S64x512_o49_0_S1x512 : S64x512.Slices ![49, 0] S1x512
  slices_S512x64_o0_50_S512x1 : S512x64.Slices ![0, 50] S512x1
  slices_S64x512_o50_0_S1x512 : S64x512.Slices ![50, 0] S1x512
  slices_S512x64_o0_51_S512x1 : S512x64.Slices ![0, 51] S512x1
  slices_S64x512_o51_0_S1x512 : S64x512.Slices ![51, 0] S1x512
  slices_S512x64_o0_52_S512x1 : S512x64.Slices ![0, 52] S512x1
  slices_S64x512_o52_0_S1x512 : S64x512.Slices ![52, 0] S1x512
  slices_S512x64_o0_53_S512x1 : S512x64.Slices ![0, 53] S512x1
  slices_S64x512_o53_0_S1x512 : S64x512.Slices ![53, 0] S1x512
  slices_S512x64_o0_54_S512x1 : S512x64.Slices ![0, 54] S512x1
  slices_S64x512_o54_0_S1x512 : S64x512.Slices ![54, 0] S1x512
  slices_S512x64_o0_55_S512x1 : S512x64.Slices ![0, 55] S512x1
  slices_S64x512_o55_0_S1x512 : S64x512.Slices ![55, 0] S1x512
  slices_S512x64_o0_56_S512x1 : S512x64.Slices ![0, 56] S512x1
  slices_S64x512_o56_0_S1x512 : S64x512.Slices ![56, 0] S1x512
  slices_S512x64_o0_57_S512x1 : S512x64.Slices ![0, 57] S512x1
  slices_S64x512_o57_0_S1x512 : S64x512.Slices ![57, 0] S1x512
  slices_S512x64_o0_58_S512x1 : S512x64.Slices ![0, 58] S512x1
  slices_S64x512_o58_0_S1x512 : S64x512.Slices ![58, 0] S1x512
  slices_S512x64_o0_59_S512x1 : S512x64.Slices ![0, 59] S512x1
  slices_S64x512_o59_0_S1x512 : S64x512.Slices ![59, 0] S1x512
  slices_S512x64_o0_60_S512x1 : S512x64.Slices ![0, 60] S512x1
  slices_S64x512_o60_0_S1x512 : S64x512.Slices ![60, 0] S1x512
  slices_S512x64_o0_61_S512x1 : S512x64.Slices ![0, 61] S512x1
  slices_S64x512_o61_0_S1x512 : S64x512.Slices ![61, 0] S1x512
  slices_S512x64_o0_62_S512x1 : S512x64.Slices ![0, 62] S512x1
  slices_S64x512_o62_0_S1x512 : S64x512.Slices ![62, 0] S1x512
  slices_S512x64_o0_63_S512x1 : S512x64.Slices ![0, 63] S512x1
  slices_S64x512_o63_0_S1x512 : S64x512.Slices ![63, 0] S1x512
  reduces_S512x512_S512 : S512x512.Reduces [1] S512
  reduces_S512x512_S512_2 : S512x512.Reduces [0] S512
  reduces_S512x1_S1 : S512x1.Reduces [0] S1
  shapeCasts_S1_S1x1 : S1.ShapeCasts S1x1
  broadcasts_S1x1_S1x4 : S1x1.Broadcasts S1x4
  inb_S4x4_S1x4_0_0 : ∀ a, (![0, 0] : Fin 2 → Nat) a + S1x4.size a ≤ S4x4.size a
  inb_S4x512x64_S1x512x64_1_0_0 : ∀ a, (![1, 0, 0] : Fin 3 → Nat) a + S1x512x64.size a ≤ S4x512x64.size a
  inb_S4x64x512_S1x64x512_1_0_0 : ∀ a, (![1, 0, 0] : Fin 3 → Nat) a + S1x64x512.size a ≤ S4x64x512.size a
  inb_S4x4_S1x4_1_0 : ∀ a, (![1, 0] : Fin 2 → Nat) a + S1x4.size a ≤ S4x4.size a
  inb_S4x512x64_S1x512x64_2_0_0 : ∀ a, (![2, 0, 0] : Fin 3 → Nat) a + S1x512x64.size a ≤ S4x512x64.size a
  inb_S4x64x512_S1x64x512_2_0_0 : ∀ a, (![2, 0, 0] : Fin 3 → Nat) a + S1x64x512.size a ≤ S4x64x512.size a
  inb_S4x4_S1x4_2_0 : ∀ a, (![2, 0] : Fin 2 → Nat) a + S1x4.size a ≤ S4x4.size a
  inb_S4x512x64_S1x512x64_3_0_0 : ∀ a, (![3, 0, 0] : Fin 3 → Nat) a + S1x512x64.size a ≤ S4x512x64.size a
  inb_S4x64x512_S1x64x512_3_0_0 : ∀ a, (![3, 0, 0] : Fin 3 → Nat) a + S1x64x512.size a ≤ S4x64x512.size a
  inb_S4x4_S1x4_3_0 : ∀ a, (![3, 0] : Fin 2 → Nat) a + S1x4.size a ≤ S4x4.size a
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x512x64.size a ≤ S4x512x64.size a
  hwx0_0 : ∀ i : grid0.Coords, EltTy.bits .f32 = 32 ∨ (Rect.block (s := S4x512x64) S4x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64x512.size a ≤ S4x64x512.size a
  hwx0_1 : ∀ i : grid0.Coords, EltTy.bits .f32 = 32 ∨ (Rect.block (s := S4x64x512) S4x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4.size a ≤ S1x4.size a
  hwx0_3 : ∀ i : grid0.Coords, EltTy.bits .f32 = 32 ∨ (Rect.block (s := S1x4) S1x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x4.size a ≤ S4x4.size a
  hwx0_4 : ∀ i : grid0.Coords, EltTy.bits .f32 = 32 ∨ (Rect.block (s := S4x4) S4x4.size (cc0_transform_4 i) (hinb0_4 i)).WholeWords (EltTy.packing .f32)

variable [Facts₀]

abbrev win0_0 : Pipeline.Window sig grid0 :=
  Pipeline.Window.ofSpec (Memref.whole main_v0) S4x512x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4x64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4x4.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x512x64 : Shape := ⟨3, ![8, 512, 64]⟩
abbrev S1x4 : Shape := ⟨2, ![1, 4]⟩
abbrev S4 : Shape := ⟨1, ![4]⟩
abbrev S4x512x64 : Shape := ⟨3, ![4, 512, 64]⟩
abbrev S4x512x1x64 : Shape := ⟨4, ![4, 512, 1, 64]⟩
abbrev S4x1x512x64 : Shape := ⟨4, ![4, 1, 512, 64]⟩
abbrev S4x512x512x64 : Shape := ⟨4, ![4, 512, 512, 64]⟩
abbrev S_ : Shape := ⟨0, ![]⟩
abbrev S4x512x512 : Shape := ⟨3, ![4, 512, 512]⟩
abbrev S4x512 : Shape := ⟨2, ![4, 512]⟩
abbrev S4x512x1 : Shape := ⟨3, ![4, 512, 1]⟩
abbrev S4x1x512 : Shape := ⟨3, ![4, 1, 512]⟩
abbrev S1x1x4 : Shape := ⟨3, ![1, 1, 4]⟩
abbrev S4x1x1 : Shape := ⟨3, ![4, 1, 1]⟩
abbrev S4x1x4 : Shape := ⟨3, ![4, 1, 4]⟩
abbrev S4x4 : Shape := ⟨2, ![4, 4]⟩

abbrev nBuf : Space → Nat
  | .hbm => 61
  | .vmem => 0
  | .smem => 0
  | _ => 0

abbrev bufTy : (tb : Table) → Fin (tcTables nBuf tb) → BufTy
  | .hbm, ⟨0, _⟩ => ⟨S8x512x64, .f32⟩
  | .hbm, ⟨1, _⟩ => ⟨S1x4, .f32⟩
  | .hbm, ⟨2, _⟩ => ⟨S4, .f32⟩
  | .hbm, ⟨3, _⟩ => ⟨S4x512x64, .f32⟩
  | .hbm, ⟨4, _⟩ => ⟨S4x512x64, .f32⟩
  | .hbm, ⟨5, _⟩ => ⟨S4x512x1x64, .f32⟩
  | .hbm, ⟨6, _⟩ => ⟨S4x1x512x64, .f32⟩
  | .hbm, ⟨7, _⟩ => ⟨S4x512x512x64, .f32⟩
  | .hbm, ⟨8, _⟩ => ⟨S4x512x512x64, .f32⟩
  | .hbm, ⟨9, _⟩ => ⟨S4x512x512x64, .f32⟩
  | .hbm, ⟨10, _⟩ => ⟨S4x512x512x64, .f32⟩
  | .hbm, ⟨11, _⟩ => ⟨S_, .f32⟩
  | .hbm, ⟨12, _⟩ => ⟨S4x512x512, .f32⟩
  | .hbm, ⟨13, _⟩ => ⟨S4x512x512, .f32⟩
  | .hbm, ⟨14, _⟩ => ⟨S_, .f32⟩
  | .hbm, ⟨15, _⟩ => ⟨S4x512, .f32⟩
  | .hbm, ⟨16, _⟩ => ⟨S_, .f32⟩
  | .hbm, ⟨17, _⟩ => ⟨S4x512, .f32⟩
  | .hbm, ⟨18, _⟩ => ⟨S4x512, .f32⟩
  | .hbm, ⟨19, _⟩ => ⟨S4x512x1, .f32⟩
  | .hbm, ⟨20, _⟩ => ⟨S4x512x512, .f32⟩
  | .hbm, ⟨21, _⟩ => ⟨S4x512x512, .f32⟩
  | .hbm, ⟨22, _⟩ => ⟨S4x512x512, .f32⟩
  | .hbm, ⟨23, _⟩ => ⟨S_, .f32⟩
  | .hbm, ⟨24, _⟩ => ⟨S4x512, .f32⟩
  | .hbm, ⟨25, _⟩ => ⟨S4x512x1, .f32⟩
  | .hbm, ⟨26, _⟩ => ⟨S4x512x512, .f32⟩
  | .hbm, ⟨27, _⟩ => ⟨S4x512x512, .f32⟩
  | .hbm, ⟨28, _⟩ => ⟨S_, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x1x512, .f32⟩
  | .hbm, ⟨34, _⟩ => ⟨S4x512x512, .f32⟩
  | .hbm, ⟨35, _⟩ => ⟨S4x512x512, .f32⟩
  | .hbm, ⟨36, _⟩ => ⟨S4x512x512, .f32⟩
  | .hbm, ⟨37, _⟩ => ⟨S_, .f32⟩
  | .hbm, ⟨38, _⟩ => ⟨S4x512, .f32⟩
  | .hbm, ⟨39, _⟩ => ⟨S4x1x512, .f32⟩
  | .hbm, ⟨40, _⟩ => ⟨S4x512x512, .f32⟩
  | .hbm, ⟨41, _⟩ => ⟨S4x512x512, .f32⟩
  | .hbm, ⟨42, _⟩ => ⟨S4x512x512, .f32⟩
  | .hbm, ⟨43, _⟩ => ⟨S4x512x512, .f32⟩
  | .hbm, ⟨44, _⟩ => ⟨S4x512x512, .f32⟩
  | .hbm, ⟨45, _⟩ => ⟨S4x512x512, .f32⟩
  | .hbm, ⟨46, _⟩ => ⟨S_, .f32⟩
  | .hbm, ⟨47, _⟩ => ⟨S4, .f32⟩
  | .hbm, ⟨48, _⟩ => ⟨S_, .f32⟩
  | .hbm, ⟨49, _⟩ => ⟨S4, .f32⟩
  | .hbm, ⟨50, _⟩ => ⟨S4, .f32⟩
  | .hbm, ⟨51, _⟩ => ⟨S1x1x4, .f32⟩
  | .hbm, ⟨52, _⟩ => ⟨S4x1x1, .f32⟩
  | .hbm, ⟨53, _⟩ => ⟨S4x1x4, .f32⟩
  | .hbm, ⟨54, _⟩ => ⟨S4x1x4, .f32⟩
  | .hbm, ⟨55, _⟩ => ⟨S4x1x4, .f32⟩
  | .hbm, ⟨56, _⟩ => ⟨S1x4, .f32⟩
  | .hbm, ⟨57, _⟩ => ⟨S1x1x4, .f32⟩
  | .hbm, ⟨58, _⟩ => ⟨S4x1x4, .f32⟩
  | .hbm, ⟨59, _⟩ => ⟨S4x1x4, .f32⟩
  | .hbm, ⟨60, _⟩ => ⟨S4x4, .f32⟩
  | _, _ => ⟨S8x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]

class Facts₀ : Prop where
  slices_S8x512x64_S4x512x64_0_0_0 : S8x512x64.Slices ![0, 0, 0] S4x512x64
  slices_S8x512x64_S4x512x64_4_0_0 : S8x512x64.Slices ![4, 0, 0] S4x512x64
  bcast_S4x512x64_S4x512x1x64_0_1_3 : S4x512x64.BroadcastsInDim S4x512x1x64 (![0, 1, 3] : Fin 3 → Fin S4x512x1x64.rank)
  bcast_S4x512x64_S4x1x512x64_0_2_3 : S4x512x64.BroadcastsInDim S4x1x512x64 (![0, 2, 3] : Fin 3 → Fin S4x1x512x64.rank)
  bcast_S4x512x1x64_S4x512x512x64_0_1_2_3 : S4x512x1x64.BroadcastsInDim S4x512x512x64 (![0, 1, 2, 3] : Fin 4 → Fin S4x512x512x64.rank)
  bcast_S4x1x512x64_S4x512x512x64_0_1_2_3 : S4x1x512x64.BroadcastsInDim S4x512x512x64 (![0, 1, 2, 3] : Fin 4 → Fin S4x512x512x64.rank)
  reducesTo_S4x512x512x64_S4x512x512_d3 : S4x512x512x64.ReducesTo [3] S4x512x512
  h_S_ : 0 < S_.numel
  reducesTo_S4x512x512_S4x512_d2 : S4x512x512.ReducesTo [2] S4x512
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  bcast_S4x512x1_S4x512x512_0_1_2 : S4x512x1.BroadcastsInDim S4x512x512 (![0, 1, 2] : Fin 3 → Fin S4x512x512.rank)
  reducesTo_S4x512x512_S4x512_d1 : S4x512x512.ReducesTo [1] S4x512
  bcast_S4x512_S4x1x512_0_2 : S4x512.BroadcastsInDim S4x1x512 (![0, 2] : Fin 2 → Fin S4x1x512.rank)
  bcast_S4x1x512_S4x512x512_0_1_2 : S4x1x512.BroadcastsInDim S4x512x512 (![0, 1, 2] : Fin 3 → Fin S4x512x512.rank)
  reducesTo_S4x512x512_S4_d1_2 : S4x512x512.ReducesTo [1, 2] S4
  bcast_S1x4_S1x1x4_1_2 : S1x4.BroadcastsInDim S1x1x4 (![1, 2] : Fin 2 → Fin S1x1x4.rank)
  bcast_S4_S4x1x1_0 : S4.BroadcastsInDim S4x1x1 (![0] : Fin 1 → Fin S4x1x1.rank)
  bcast_S4x1x1_S4x1x4_0_1_2 : S4x1x1.BroadcastsInDim S4x1x4 (![0, 1, 2] : Fin 3 → Fin S4x1x4.rank)
  bcast_S1x1x4_S4x1x4_0_1_2 : S1x1x4.BroadcastsInDim S4x1x4 (![0, 1, 2] : Fin 3 → Fin S4x1x4.rank)
  bcast_S4_S1x4_1 : S4.BroadcastsInDim S1x4 (![1] : Fin 1 → Fin S1x4.rank)
  shapeCasts_S4x1x4_S4x4 : S4x1x4.ShapeCasts S4x4

variable [Facts₀]

class Facts : Prop extends Facts₀ where

variable [Facts]
-- ==== Proof.Tail.lean ====
/-
  The kernel's arithmetic after the distance accumulation of one pair, as functions of the accumulated
  distance matrix `A` (512 × 512): the score `0 - A`, the two softmaxes (maximum, exponential of the
  difference, sum, quotient), the alignment `a + b - a * b`, its weighted total over both axes (lanes
  first, then sublanes), the quotient of the two totals, and `quotient * weight + bias`.
-/
import proofs.«118462_j47072841564314_1_alg».proof.Proof.Gen.KernelIdeal

noncomputable section

namespace Cert.KernelIdeal.Hand

open Cert.KernelIdeal Cert.KernelIdeal.Gen Idealize.ShloMosaic

variable {F : FTy → Type} [FloatOps F]

/-- The score matrix: zero minus the accumulated distances. -/
def negScore (A : FVec F S512x512 .f32) : FVec F S512x512 .f32 :=
  subf (broadcast S512x512 (Scalar.ofBits .f32 0x00000000#32)) A

/-- A column vector (one value per row) spread along the lanes. -/
def spreadRows (v : FVec F S512 .f32) : FVec F S512x512 .f32 :=
  broadcastTo S512x512 (shapeCast S512x1 v shapeCasts_S512_S512x1) broadcasts_S512x1_S512x512

/-- A row vector (one value per column) spread along the sublanes. -/
def spreadCols (v : FVec F S512 .f32) : FVec F S512x512 .f32 :=
  broadcastTo S512x512 (shapeCast S1x512 v shapeCasts_S512_S1x512) broadcasts_S1x512_S512x512

/-- The exponentials of a row softmax: `exp (S - rowwise max)`. -/
def rowExp (S : FVec F S512x512 .f32) : FVec F S512x512 .f32 :=
  exp (subf S (spreadRows (multiReduction .maximumf [1] S512 S 0xFF800000#32 reduces_S512x512_S512 (.inl rfl) rfl)))

/-- The row softmax. -/
def rowSoft (S : FVec F S512x512 .f32) : FVec F S512x512 .f32 :=
  divf (rowExp S) (spreadRows (multiReduction .add [1] S512 (rowExp S) 0x00000000#32 reduces_S512x512_S512 (.inl rfl) rfl))

/-- The exponentials of a column softmax: `exp (S - columnwise max)`. -/
def colExp (S : FVec F S512x512 .f32) : FVec F S512x512 .f32 :=
  exp (subf S (spreadCols (multiReduction .maximumf [0] S512 S 0xFF800000#32 reduces_S512x512_S512_2 (.inl rfl) rfl)))

/-- The column softmax. -/
def colSoft (S : FVec F S512x512 .f32) : FVec F S512x512 .f32 :=
  divf (colExp S) (spreadCols (multiReduction .add [0] S512 (colExp S) 0x00000000#32 reduces_S512x512_S512_2 (.inl rfl) rfl))

/-- The symmetric soft alignment `a + b - a * b`. -/
def alignM (S : FVec F S512x512 .f32) : FVec F S512x512 .f32 :=
  subf (addf (rowSoft S) (colSoft S)) (mulf (rowSoft S) (colSoft S))

/-- The total of a matrix: along the lanes, then along the sublanes, as a 1 × 1 value. -/
def total (X : FVec F S512x512 .f32) : FVec F S1x1 .f32 :=
  shapeCast S1x1 (multiReduction .add [0] S1 (shapeCast S512x1 (multiReduction .add [1] S512 X 0x00000000#32 reduces_S512x512_S512 (.inl rfl) rfl) shapeCasts_S512_S512x1) 0x00000000#32 reduces_S512x1_S1 (.inl rfl) rfl) shapeCasts_S1_S1x1

/-- The alignment-weighted mean of the scores, as a 1 × 1 value. -/
def meanScore (S : FVec F S512x512 .f32) : FVec F S1x1 .f32 :=
  divf (total (mulf (alignM S) S)) (total (alignM S))

/-- One pair's row of the result from its accumulated distances. -/
def tailFn (ow : Vec F S1x4 .f32) (ob : FVec F S1x4 .f32) (A : FVec F S512x512 .f32) : FVec F S1x4 .f32 :=
  addf (mulf (broadcastTo S1x4 (meanScore (negScore A)) broadcasts_S1x1_S1x4) ow) ob

end Cert.KernelIdeal.Hand

end
-- ==== Proof.Spec.lean ====
/-
  The mathematics both programs compute, for ONE pair of sequences, over the extended reals.

  For a pair of sequences `X, Y : 512 × 64` the score matrix is the negated L1 distance of rows,
  `S i j = -(∑ d, |X i d - Y j d|)` (the absolute value written `max a (-a)`). A row-wise and a
  column-wise softmax of `S` (each with its maximum subtracted, the maximum taken as a fold of `max`
  from `⊥`) give `a` and `b`; the symmetric soft alignment is `c = a + b - a * b`; and the pair's
  scalar is the `c`-weighted mean of the scores, `(∑ i j, c i j * S i j) / (∑ i j, c i j)`.
  The program's result at `(p, k)` is that scalar times `weight k` plus `bias k`.
-/
import Idealize.ShloMosaic.PureOps.Ideal
import Idealize.ShloMosaic.Lib.ValueIdx

noncomputable section

namespace Cert.Align

open Idealize.ShloMosaic

/-- The L1 distance between row `i` of `X` and row `j` of `Y`. -/
def dist (X Y : Fin 512 → Fin 64 → EReal) (i j : Fin 512) : EReal :=
  ∑ d : Fin 64, max (X i d - Y j d) (-(X i d - Y j d))

/-- A row's maximum, as a fold from `⊥`. -/
def rowMax (S : Fin 512 → Fin 512 → EReal) (i : Fin 512) : EReal :=
  (Finset.univ : Finset (Fin 512)).fold max ⊥ (fun j => S i j)

/-- A column's maximum, as a fold from `⊥`. -/
def colMax (S : Fin 512 → Fin 512 → EReal) (j : Fin 512) : EReal :=
  (Finset.univ : Finset (Fin 512)).fold max ⊥ (fun i => S i j)

/-- The softmax along each row (over `j`). -/
def rowSoft (S : Fin 512 → Fin 512 → EReal) (i j : Fin 512) : EReal :=
  Ideal.div (Ideal.exp (S i j - rowMax S i)) (∑ j' : Fin 512, Ideal.exp (S i j' - rowMax S i))

/-- The softmax along each column (over `i`). -/
def colSoft (S : Fin 512 → Fin 512 → EReal) (i j : Fin 512) : EReal :=
  Ideal.div (Ideal.exp (S i j - colMax S j)) (∑ i' : Fin 512, Ideal.exp (S i' j - colMax S j))

/-- The symmetric soft alignment `a + b - a * b`. -/
def align (S : Fin 512 → Fin 512 → EReal) (i j : Fin 512) : EReal :=
  rowSoft S i j + colSoft S i j - rowSoft S i j * colSoft S i j

/-- The alignment-weighted mean of the scores. -/
def cval (S : Fin 512 → Fin 512 → EReal) : EReal :=
  Ideal.div (∑ i : Fin 512, ∑ j : Fin 512, align S i j * S i j) (∑ i : Fin 512, ∑ j : Fin 512, align S i j)

/-- Pair `p`'s first sequence is row block `p` of the eight, its second row block `4 + p`. -/
def lo (p : Fin 4) : Fin 8 := ⟨p.val, by have := p.isLt; omega⟩
def hi (p : Fin 4) : Fin 8 := ⟨4 + p.val, by have := p.isLt; omega⟩

end Cert.Align

end
-- ==== Proof.Chain.lean ====
/-
  One pair's distance accumulation, read as a sum.

  The kernel builds the 512 × 512 matrix of L1 distances one feature `d` at a time: column `d` of the
  first sequence's block (512 × 64) spread along the lanes, minus row `d` of the second sequence's
  transposed block (64 × 512) spread along the sublanes, in absolute value, added to the running total,
  which starts at zero. `distUpTo z0 z1t n` is the total after `n` features as ONE function of the index:
  entry `(i, j)` is `∑ d < n, |z0 (i, d) - z1t (d, j)|`. Each accumulation step takes `distUpTo … n` to
  `distUpTo … (n + 1)`; after all 64 the entry is the L1 distance of row `i` and column `j`.
-/
import proofs.«118462_j47072841564314_1_alg».proof.Proof.Gen.KernelIdeal
import proofs.«118462_j47072841564314_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- `|z0 (i, d) - z1t (d, j)|` for a feature `d < 64` (zero past the last feature). -/
def absDiff (z0 : FVec Ideal S512x64 .f32) (z1t : FVec Ideal S64x512 .f32) (d : ℕ) (i j : Fin 512) : EReal :=
  if h : d < 64 then max (z0 (ix2 i ⟨d, h⟩) - z1t (ix2 ⟨d, h⟩ j)) (-(z0 (ix2 i ⟨d, h⟩) - z1t (ix2 ⟨d, h⟩ j))) else 0

/-- The running total after `n` features. -/
def distUpTo (z0 : FVec Ideal S512x64 .f32) (z1t : FVec Ideal S64x512 .f32) (n : ℕ) : FVec Ideal S512x512 .f32 :=
  fun y => ∑ d ∈ Finset.range n, absDiff z0 z1t d ⟨(y 0).val, idx2_lt0 y⟩ ⟨(y 1).val, idx2_lt1 y⟩

theorem distUpTo_apply (z0 : FVec Ideal S512x64 .f32) (z1t : FVec Ideal S64x512 .f32) (n : ℕ) (i j : Fin 512) :
    distUpTo z0 z1t n (ix2 i j) = ∑ d ∈ Finset.range n, absDiff z0 z1t d i j := rfl

/-- A slice of one column at offset `d` exists only for `d < 64`. -/
theorem lt_of_colSlice {d : ℕ} (hs0 : S512x64.Slices ![0, d] S512x1) : d < 64 := by
  have h := hs0.2 (1 : Fin 2)
  have h' : d + 1 ≤ 64 := h
  omega

/-- Column `d` of the first block, spread along the lanes, at `(i, j)`. -/
theorem colSpread_apply (z0 : FVec Ideal S512x64 .f32) (d : ℕ) (hs0 : S512x64.Slices ![0, d] S512x1) (hd : d < 64) (i j : Fin 512) :
    broadcastTo S512x512 (shapeCast S512x1 (shapeCast S512 (extractStridedSlice S512x1 ![0, d] z0 hs0) shapeCasts_S512x1_S512) shapeCasts_S512_S512x1) broadcasts_S512x1_S512x512 (ix2 i j)
      = z0 (ix2 i ⟨d, hd⟩) := by
  rw [shapeCast_shapeCast]
  refine (broadcastTo_apply _ broadcasts_S512x1_S512x512 (ix2 i j) (ix2 i (0 : Fin 1)) fun a => ?_).trans ?_
  · match a with
    | ⟨0, _⟩ => rfl
    | ⟨1, _⟩ => rfl
  · exact extractStridedSlice_apply ![0, d] z0 hs0 (ix2 i (0 : Fin 1)) (ix2 i ⟨d, hd⟩) fun a => by
      match a with
      | ⟨0, _⟩ => show i.val = 0 + i.val; omega
      | ⟨1, _⟩ => show d = d + 0; omega

/-- Row `d` of the second (transposed) block, spread along the sublanes, at `(i, j)`. -/
theorem rowSpread_apply (z1t : FVec Ideal S64x512 .f32) (d : ℕ) (hs1 : S64x512.Slices ![d, 0] S1x512) (hd : d < 64) (i j : Fin 512) :
    broadcastTo S512x512 (shapeCast S1x512 (shapeCast S512 (extractStridedSlice S1x512 ![d, 0] z1t hs1) shapeCasts_S1x512_S512) shapeCasts_S512_S1x512) broadcasts_S1x512_S512x512 (ix2 i j)
      = z1t (ix2 ⟨d, hd⟩ j) := by
  rw [shapeCast_shapeCast]
  refine (broadcastTo_apply _ broadcasts_S1x512_S512x512 (ix2 i j) (ix2 (0 : Fin 1) j) fun a => ?_).trans ?_
  · match a with
    | ⟨0, _⟩ => rfl
    | ⟨1, _⟩ => rfl
  · exact extractStridedSlice_apply ![d, 0] z1t hs1 (ix2 (0 : Fin 1) j) (ix2 ⟨d, hd⟩ j) fun a => by
      match a with
      | ⟨0, _⟩ => show d = d + 0; omega
      | ⟨1, _⟩ => show j.val = 0 + j.val; omega

/-- One feature's term, as the kernel computes it, at `(i, j)`. -/
theorem term_apply (z0 : FVec Ideal S512x64 .f32) (z1t : FVec Ideal S64x512 .f32) (d : ℕ)
    (hs0 : S512x64.Slices ![0, d] S512x1) (hs1 : S64x512.Slices ![d, 0] S1x512) (i j : Fin 512) :
    absf (subf (broadcastTo S512x512 (shapeCast S512x1 (shapeCast S512 (extractStridedSlice S512x1 ![0, d] z0 hs0) shapeCasts_S512x1_S512) shapeCasts_S512_S512x1) broadcasts_S512x1_S512x512)
        (broadcastTo S512x512 (shapeCast S1x512 (shapeCast S512 (extractStridedSlice S1x512 ![d, 0] z1t hs1) shapeCasts_S1x512_S512) shapeCasts_S512_S1x512) broadcasts_S1x512_S512x512)) (ix2 i j)
      = absDiff z0 z1t d i j := by
  have hd : d < 64 := lt_of_colSlice hs0
  unfold absDiff
  rw [dif_pos hd, ← colSpread_apply z0 d hs0 hd i j, ← rowSpread_apply z1t d hs1 hd i j]
  rfl

/-- THE STEP: adding feature `n`'s term to the total after `n` features gives the total after `n + 1`. -/
theorem dist_step (z0 : FVec Ideal S512x64 .f32) (z1t : FVec Ideal S64x512 .f32) (n : ℕ)
    (hs0 : S512x64.Slices ![0, n] S512x1) (hs1 : S64x512.Slices ![n, 0] S1x512) :
    addf (distUpTo z0 z1t n)
      (absf (subf (broadcastTo S512x512 (shapeCast S512x1 (shapeCast S512 (extractStridedSlice S512x1 ![0, n] z0 hs0) shapeCasts_S512x1_S512) shapeCasts_S512_S512x1) broadcasts_S512x1_S512x512)
        (broadcastTo S512x512 (shapeCast S1x512 (shapeCast S512 (extractStridedSlice S1x512 ![n, 0] z1t hs1) shapeCasts_S1x512_S512) shapeCasts_S512_S1x512) broadcasts_S1x512_S512x512)))
      = distUpTo z0 z1t (n + 1) := by
  funext y
  obtain ⟨i, j, rfl⟩ : ∃ (i j : Fin 512), y = ix2 i j := ⟨⟨(y 0).val, idx2_lt0 y⟩, ⟨(y 1).val, idx2_lt1 y⟩, eq_ix2 y⟩
  rw [addf_apply, term_apply, distUpTo_apply, distUpTo_apply, Finset.sum_range_succ]

/-- THE START: the zero matrix plus feature 0's term is the total after one feature. -/
theorem dist_base (z0 : FVec Ideal S512x64 .f32) (z1t : FVec Ideal S64x512 .f32)
    (hs0 : S512x64.Slices ![0, 0] S512x1) (hs1 : S64x512.Slices ![0, 0] S1x512) :
    addf (broadcast S512x512 (Scalar.ofBits (F := Ideal) .f32 0x00000000#32))
      (absf (subf (broadcastTo S512x512 (shapeCast S512x1 (shapeCast S512 (extractStridedSlice S512x1 ![0, 0] z0 hs0) shapeCasts_S512x1_S512) shapeCasts_S512_S512x1) broadcasts_S512x1_S512x512)
        (broadcastTo S512x512 (shapeCast S1x512 (shapeCast S512 (extractStridedSlice S1x512 ![0, 0] z1t hs1) shapeCasts_S1x512_S512) shapeCasts_S512_S1x512) broadcasts_S1x512_S512x512)))
      = distUpTo z0 z1t 1 := by
  funext y
  obtain ⟨i, j, rfl⟩ : ∃ (i j : Fin 512), y = ix2 i j := ⟨⟨(y 0).val, idx2_lt0 y⟩, ⟨(y 1).val, idx2_lt1 y⟩, eq_ix2 y⟩
  rw [addf_apply, term_apply, distUpTo_apply, Finset.sum_range_one]
  show Ideal.ofBits .f32 0x00000000#32 + _ = _
  rw [Ideal.ofBits_zero_f32, zero_add]

/-- After all 64 features the entry at `(i, j)` is the L1 distance between row `i` of the first block and
    column `j` of the second, transposed one. -/
theorem distUpTo_all (z0 : FVec Ideal S512x64 .f32) (z1t : FVec Ideal S64x512 .f32) (i j : Fin 512) :
    distUpTo z0 z1t 64 (ix2 i j) = Cert.Align.dist (fun i d => z0 (ix2 i d)) (fun j d => z1t (ix2 d j)) i j := by
  rw [distUpTo_apply, Finset.sum_range]
  unfold Cert.Align.dist
  refine Finset.sum_congr rfl fun d _ => ?_
  unfold absDiff
  rw [dif_pos d.isLt]

end Cert.KernelIdeal.Hand

end
-- ==== Proof.Pieces.lean ====
/-
  The kernel body's four stores, one per pair of sequences, each as the tail arithmetic of that pair's
  distance matrix after all 64 features.

  The body, unrolled, accumulates pair `p`'s distance matrix by 64 steps from zero over block `p` of its
  two inputs and then stores row `p` of the output. Unfolding the body's arithmetic and folding each of the
  64 steps with `dist_base` / `dist_step` leaves, for each pair, `tailFn weight bias (distUpTo z0 z1t 64)`.
-/
import proofs.«118462_j47072841564314_1_alg».proof.Proof.Gen.KernelIdeal.Frame
import proofs.«118462_j47072841564314_1_alg».proof.Proof.Tail
import proofs.«118462_j47072841564314_1_alg».proof.Proof.Chain

noncomputable section

namespace Cert.KernelIdeal.Hand

open Cert.KernelIdeal Cert.KernelIdeal.Gen Idealize.ShloMosaic Idealize.ShloMosaic.ValueIdx

set_option maxHeartbeats 1000000 in
/-- Pair 0's stored row: the tail arithmetic over its 64-feature distances. -/
theorem piece0 (L0 : Vec Ideal S1x512x64 .f32) (L1 : Vec Ideal S1x64x512 .f32) (ow : Vec Ideal S1x4 .f32) (ob : FVec Ideal S1x4 .f32) :
    k0_pay35 ow ob (k0_pay32 (k0_pay3 L0) (k0_pay4 L1) (k0_pay30 (k0_pay3 L0) (k0_pay4 L1) (k0_pay27 (k0_pay3 L0) (k0_pay4 L1) (k0_pay24 (k0_pay3 L0) (k0_pay4 L1) (k0_pay22 (k0_pay3 L0) (k0_pay4 L1) (k0_pay19 (k0_pay3 L0) (k0_pay4 L1) (k0_pay17 (k0_pay3 L0) (k0_pay4 L1) (k0_pay14 (k0_pay3 L0) (k0_pay4 L1) (k0_pay13 (k0_pay3 L0) (k0_pay4 L1) (k0_pay10 (k0_pay3 L0) (k0_pay4 L1) (k0_pay8 (k0_pay3 L0) (k0_pay4 L1) (k0_pay5 L0 L1) (k0_pay6 L1) (k0_pay7 L0)) (k0_pay9 (k0_pay3 L0))) (k0_pay11 (k0_pay3 L0)) (k0_pay12 (k0_pay4 L1)))) (k0_pay15 (k0_pay4 L1)) (k0_pay16 (k0_pay3 L0))) (k0_pay18 (k0_pay3 L0) (k0_pay4 L1))) (k0_pay20 (k0_pay3 L0)) (k0_pay21 (k0_pay4 L1))) (k0_pay23 (k0_pay3 L0) (k0_pay4 L1))) (k0_pay25 (k0_pay3 L0)) (k0_pay26 (k0_pay4 L1))) (k0_pay28 (k0_pay3 L0)) (k0_pay29 (k0_pay4 L1))) (k0_pay31 (k0_pay3 L0))) (k0_pay33 (k0_pay4 L1)) (k0_pay34 (k0_pay3 L0))
      = tailFn ow ob (distUpTo (k0_pay3 L0) (k0_pay4 L1) 64) := by
  simp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
  simp only [dist_base, dist_step, Nat.reduceAdd]
  rfl

set_option maxHeartbeats 1000000 in
/-- Pair 1's stored row: the tail arithmetic over its 64-feature distances. -/
theorem piece1 (L0 : Vec Ideal S1x512x64 .f32) (L1 : Vec Ideal S1x64x512 .f32) (ow : Vec Ideal S1x4 .f32) (ob : FVec Ideal S1x4 .f32) :
    k0_pay68 ow ob (k0_pay65 (k0_pay36 L0) (k0_pay37 L1) (k0_pay62 (k0_pay36 L0) (k0_pay37 L1) (k0_pay60 (k0_pay36 L0) (k0_pay37 L1) (k0_pay57 (k0_pay36 L0) (k0_pay37 L1) (k0_pay55 (k0_pay36 L0) (k0_pay37 L1) (k0_pay52 (k0_pay36 L0) (k0_pay37 L1) (k0_pay49 (k0_pay36 L0) (k0_pay37 L1) (k0_pay47 (k0_pay36 L0) (k0_pay37 L1) (k0_pay44 (k0_pay36 L0) (k0_pay37 L1) (k0_pay42 (k0_pay36 L0) (k0_pay37 L1) (k0_pay39 (k0_pay36 L0) (k0_pay37 L1) (k0_pay38 (k0_pay36 L0) L1)) (k0_pay40 (k0_pay37 L1)) (k0_pay41 (k0_pay36 L0))) (k0_pay43 (k0_pay36 L0) (k0_pay37 L1))) (k0_pay45 (k0_pay36 L0)) (k0_pay46 (k0_pay37 L1))) (k0_pay48 (k0_pay36 L0) (k0_pay37 L1))) (k0_pay50 (k0_pay36 L0)) (k0_pay51 (k0_pay37 L1))) (k0_pay53 (k0_pay36 L0)) (k0_pay54 (k0_pay37 L1))) (k0_pay56 (k0_pay36 L0))) (k0_pay58 (k0_pay37 L1)) (k0_pay59 (k0_pay36 L0))) (k0_pay61 (k0_pay36 L0))) (k0_pay63 (k0_pay36 L0)) (k0_pay64 (k0_pay37 L1))) (k0_pay66 (k0_pay36 L0) (k0_pay37 L1) (k0_pay62 (k0_pay36 L0) (k0_pay37 L1) (k0_pay60 (k0_pay36 L0) (k0_pay37 L1) (k0_pay57 (k0_pay36 L0) (k0_pay37 L1) (k0_pay55 (k0_pay36 L0) (k0_pay37 L1) (k0_pay52 (k0_pay36 L0) (k0_pay37 L1) (k0_pay49 (k0_pay36 L0) (k0_pay37 L1) (k0_pay47 (k0_pay36 L0) (k0_pay37 L1) (k0_pay44 (k0_pay36 L0) (k0_pay37 L1) (k0_pay42 (k0_pay36 L0) (k0_pay37 L1) (k0_pay39 (k0_pay36 L0) (k0_pay37 L1) (k0_pay38 (k0_pay36 L0) L1)) (k0_pay40 (k0_pay37 L1)) (k0_pay41 (k0_pay36 L0))) (k0_pay43 (k0_pay36 L0) (k0_pay37 L1))) (k0_pay45 (k0_pay36 L0)) (k0_pay46 (k0_pay37 L1))) (k0_pay48 (k0_pay36 L0) (k0_pay37 L1))) (k0_pay50 (k0_pay36 L0)) (k0_pay51 (k0_pay37 L1))) (k0_pay53 (k0_pay36 L0)) (k0_pay54 (k0_pay37 L1))) (k0_pay56 (k0_pay36 L0))) (k0_pay58 (k0_pay37 L1)) (k0_pay59 (k0_pay36 L0))) (k0_pay61 (k0_pay36 L0))) (k0_pay63 (k0_pay36 L0)) (k0_pay64 (k0_pay37 L1))) (k0_pay67 (k0_pay36 L0) (k0_pay37 L1) (k0_pay62 (k0_pay36 L0) (k0_pay37 L1) (k0_pay60 (k0_pay36 L0) (k0_pay37 L1) (k0_pay57 (k0_pay36 L0) (k0_pay37 L1) (k0_pay55 (k0_pay36 L0) (k0_pay37 L1) (k0_pay52 (k0_pay36 L0) (k0_pay37 L1) (k0_pay49 (k0_pay36 L0) (k0_pay37 L1) (k0_pay47 (k0_pay36 L0) (k0_pay37 L1) (k0_pay44 (k0_pay36 L0) (k0_pay37 L1) (k0_pay42 (k0_pay36 L0) (k0_pay37 L1) (k0_pay39 (k0_pay36 L0) (k0_pay37 L1) (k0_pay38 (k0_pay36 L0) L1)) (k0_pay40 (k0_pay37 L1)) (k0_pay41 (k0_pay36 L0))) (k0_pay43 (k0_pay36 L0) (k0_pay37 L1))) (k0_pay45 (k0_pay36 L0)) (k0_pay46 (k0_pay37 L1))) (k0_pay48 (k0_pay36 L0) (k0_pay37 L1))) (k0_pay50 (k0_pay36 L0)) (k0_pay51 (k0_pay37 L1))) (k0_pay53 (k0_pay36 L0)) (k0_pay54 (k0_pay37 L1))) (k0_pay56 (k0_pay36 L0))) (k0_pay58 (k0_pay37 L1)) (k0_pay59 (k0_pay36 L0))) (k0_pay61 (k0_pay36 L0))) (k0_pay63 (k0_pay36 L0)) (k0_pay64 (k0_pay37 L1)))
      = tailFn ow ob (distUpTo (k0_pay36 L0) (k0_pay37 L1) 64) := by
  simp only [k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68]
  simp only [dist_base, dist_step, Nat.reduceAdd]
  rfl

set_option maxHeartbeats 1000000 in
/-- Pair 2's stored row: the tail arithmetic over its 64-feature distances. -/
theorem piece2 (L0 : Vec Ideal S1x512x64 .f32) (L1 : Vec Ideal S1x64x512 .f32) (ow : Vec Ideal S1x4 .f32) (ob : FVec Ideal S1x4 .f32) :
    k0_pay104 ow ob (k0_pay100 (k0_pay69 L0) (k0_pay70 L1) (k0_pay98 (k0_pay69 L0) (k0_pay70 L1) (k0_pay95 (k0_pay69 L0) (k0_pay70 L1) (k0_pay94 (k0_pay69 L0) (k0_pay70 L1) (k0_pay91 (k0_pay69 L0) (k0_pay70 L1) (k0_pay89 (k0_pay69 L0) (k0_pay70 L1) (k0_pay86 (k0_pay69 L0) (k0_pay70 L1) (k0_pay84 (k0_pay69 L0) (k0_pay70 L1) (k0_pay81 (k0_pay69 L0) (k0_pay70 L1) (k0_pay78 (k0_pay69 L0) (k0_pay70 L1) (k0_pay76 (k0_pay69 L0) (k0_pay70 L1) (k0_pay73 (k0_pay69 L0) (k0_pay70 L1) (k0_pay71 (F := Ideal)) (k0_pay72 L0 L1)) (k0_pay74 (k0_pay69 L0)) (k0_pay75 (k0_pay70 L1))) (k0_pay77 (k0_pay69 L0) (k0_pay70 L1))) (k0_pay79 (k0_pay69 L0)) (k0_pay80 (k0_pay70 L1))) (k0_pay82 (k0_pay69 L0)) (k0_pay83 (k0_pay70 L1))) (k0_pay85 (k0_pay69 L0))) (k0_pay87 (k0_pay70 L1)) (k0_pay88 (k0_pay69 L0))) (k0_pay90 (k0_pay69 L0))) (k0_pay92 (k0_pay69 L0)) (k0_pay93 (k0_pay70 L1)))) (k0_pay96 (k0_pay70 L1)) (k0_pay97 (k0_pay69 L0))) (k0_pay99 (k0_pay69 L0) (k0_pay70 L1))) (k0_pay101 (k0_pay69 L0) (k0_pay70 L1) (k0_pay98 (k0_pay69 L0) (k0_pay70 L1) (k0_pay95 (k0_pay69 L0) (k0_pay70 L1) (k0_pay94 (k0_pay69 L0) (k0_pay70 L1) (k0_pay91 (k0_pay69 L0) (k0_pay70 L1) (k0_pay89 (k0_pay69 L0) (k0_pay70 L1) (k0_pay86 (k0_pay69 L0) (k0_pay70 L1) (k0_pay84 (k0_pay69 L0) (k0_pay70 L1) (k0_pay81 (k0_pay69 L0) (k0_pay70 L1) (k0_pay78 (k0_pay69 L0) (k0_pay70 L1) (k0_pay76 (k0_pay69 L0) (k0_pay70 L1) (k0_pay73 (k0_pay69 L0) (k0_pay70 L1) (k0_pay71 (F := Ideal)) (k0_pay72 L0 L1)) (k0_pay74 (k0_pay69 L0)) (k0_pay75 (k0_pay70 L1))) (k0_pay77 (k0_pay69 L0) (k0_pay70 L1))) (k0_pay79 (k0_pay69 L0)) (k0_pay80 (k0_pay70 L1))) (k0_pay82 (k0_pay69 L0)) (k0_pay83 (k0_pay70 L1))) (k0_pay85 (k0_pay69 L0))) (k0_pay87 (k0_pay70 L1)) (k0_pay88 (k0_pay69 L0))) (k0_pay90 (k0_pay69 L0))) (k0_pay92 (k0_pay69 L0)) (k0_pay93 (k0_pay70 L1)))) (k0_pay96 (k0_pay70 L1)) (k0_pay97 (k0_pay69 L0))) (k0_pay99 (k0_pay69 L0) (k0_pay70 L1))) (k0_pay102 (k0_pay69 L0) (k0_pay70 L1) (k0_pay98 (k0_pay69 L0) (k0_pay70 L1) (k0_pay95 (k0_pay69 L0) (k0_pay70 L1) (k0_pay94 (k0_pay69 L0) (k0_pay70 L1) (k0_pay91 (k0_pay69 L0) (k0_pay70 L1) (k0_pay89 (k0_pay69 L0) (k0_pay70 L1) (k0_pay86 (k0_pay69 L0) (k0_pay70 L1) (k0_pay84 (k0_pay69 L0) (k0_pay70 L1) (k0_pay81 (k0_pay69 L0) (k0_pay70 L1) (k0_pay78 (k0_pay69 L0) (k0_pay70 L1) (k0_pay76 (k0_pay69 L0) (k0_pay70 L1) (k0_pay73 (k0_pay69 L0) (k0_pay70 L1) (k0_pay71 (F := Ideal)) (k0_pay72 L0 L1)) (k0_pay74 (k0_pay69 L0)) (k0_pay75 (k0_pay70 L1))) (k0_pay77 (k0_pay69 L0) (k0_pay70 L1))) (k0_pay79 (k0_pay69 L0)) (k0_pay80 (k0_pay70 L1))) (k0_pay82 (k0_pay69 L0)) (k0_pay83 (k0_pay70 L1))) (k0_pay85 (k0_pay69 L0))) (k0_pay87 (k0_pay70 L1)) (k0_pay88 (k0_pay69 L0))) (k0_pay90 (k0_pay69 L0))) (k0_pay92 (k0_pay69 L0)) (k0_pay93 (k0_pay70 L1)))) (k0_pay96 (k0_pay70 L1)) (k0_pay97 (k0_pay69 L0))) (k0_pay99 (k0_pay69 L0) (k0_pay70 L1))) (k0_pay103 (k0_pay69 L0) (k0_pay70 L1) (k0_pay98 (k0_pay69 L0) (k0_pay70 L1) (k0_pay95 (k0_pay69 L0) (k0_pay70 L1) (k0_pay94 (k0_pay69 L0) (k0_pay70 L1) (k0_pay91 (k0_pay69 L0) (k0_pay70 L1) (k0_pay89 (k0_pay69 L0) (k0_pay70 L1) (k0_pay86 (k0_pay69 L0) (k0_pay70 L1) (k0_pay84 (k0_pay69 L0) (k0_pay70 L1) (k0_pay81 (k0_pay69 L0) (k0_pay70 L1) (k0_pay78 (k0_pay69 L0) (k0_pay70 L1) (k0_pay76 (k0_pay69 L0) (k0_pay70 L1) (k0_pay73 (k0_pay69 L0) (k0_pay70 L1) (k0_pay71 (F := Ideal)) (k0_pay72 L0 L1)) (k0_pay74 (k0_pay69 L0)) (k0_pay75 (k0_pay70 L1))) (k0_pay77 (k0_pay69 L0) (k0_pay70 L1))) (k0_pay79 (k0_pay69 L0)) (k0_pay80 (k0_pay70 L1))) (k0_pay82 (k0_pay69 L0)) (k0_pay83 (k0_pay70 L1))) (k0_pay85 (k0_pay69 L0))) (k0_pay87 (k0_pay70 L1)) (k0_pay88 (k0_pay69 L0))) (k0_pay90 (k0_pay69 L0))) (k0_pay92 (k0_pay69 L0)) (k0_pay93 (k0_pay70 L1)))) (k0_pay96 (k0_pay70 L1)) (k0_pay97 (k0_pay69 L0))) (k0_pay99 (k0_pay69 L0) (k0_pay70 L1)))
      = tailFn ow ob (distUpTo (k0_pay69 L0) (k0_pay70 L1) 64) := by
  simp only [k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104]
  simp only [dist_base, dist_step, Nat.reduceAdd]
  rfl

set_option maxHeartbeats 1000000 in
/-- Pair 3's stored row: the tail arithmetic over its 64-feature distances. -/
theorem piece3 (L0 : Vec Ideal S1x512x64 .f32) (L1 : Vec Ideal S1x64x512 .f32) (ow : Vec Ideal S1x4 .f32) (ob : FVec Ideal S1x4 .f32) :
    k0_pay1 ow ob (k0_pay139 (k0_pay105 L0) (k0_pay106 L1) (k0_pay134 (k0_pay105 L0) (k0_pay106 L1) (k0_pay132 (k0_pay105 L0) (k0_pay106 L1) (k0_pay129 (k0_pay105 L0) (k0_pay106 L1) (k0_pay127 (k0_pay105 L0) (k0_pay106 L1) (k0_pay124 (k0_pay105 L0) (k0_pay106 L1) (k0_pay123 (k0_pay105 L0) (k0_pay106 L1) (k0_pay120 (k0_pay105 L0) (k0_pay106 L1) (k0_pay118 (k0_pay105 L0) (k0_pay106 L1) (k0_pay115 (k0_pay105 L0) (k0_pay106 L1) (k0_pay113 (k0_pay105 L0) (k0_pay106 L1) (k0_pay110 (k0_pay105 L0) (k0_pay106 L1) (k0_pay107 L0 L1) (k0_pay108 L0) (k0_pay109 L1)) (k0_pay111 (k0_pay105 L0)) (k0_pay112 (k0_pay106 L1))) (k0_pay114 (k0_pay105 L0))) (k0_pay116 (k0_pay106 L1)) (k0_pay117 (k0_pay105 L0))) (k0_pay119 (k0_pay105 L0))) (k0_pay121 (k0_pay105 L0)) (k0_pay122 (k0_pay106 L1)))) (k0_pay125 (k0_pay106 L1)) (k0_pay126 (k0_pay105 L0))) (k0_pay128 (k0_pay105 L0) (k0_pay106 L1))) (k0_pay130 (k0_pay105 L0)) (k0_pay131 (k0_pay106 L1))) (k0_pay133 (k0_pay105 L0) (k0_pay106 L1))) (k0_pay135 (k0_pay105 L0)) (k0_pay136 (k0_pay106 L1))) (k0_pay140 (k0_pay105 L0) (k0_pay106 L1) (k0_pay134 (k0_pay105 L0) (k0_pay106 L1) (k0_pay132 (k0_pay105 L0) (k0_pay106 L1) (k0_pay129 (k0_pay105 L0) (k0_pay106 L1) (k0_pay127 (k0_pay105 L0) (k0_pay106 L1) (k0_pay124 (k0_pay105 L0) (k0_pay106 L1) (k0_pay123 (k0_pay105 L0) (k0_pay106 L1) (k0_pay120 (k0_pay105 L0) (k0_pay106 L1) (k0_pay118 (k0_pay105 L0) (k0_pay106 L1) (k0_pay115 (k0_pay105 L0) (k0_pay106 L1) (k0_pay113 (k0_pay105 L0) (k0_pay106 L1) (k0_pay110 (k0_pay105 L0) (k0_pay106 L1) (k0_pay107 L0 L1) (k0_pay108 L0) (k0_pay109 L1)) (k0_pay111 (k0_pay105 L0)) (k0_pay112 (k0_pay106 L1))) (k0_pay114 (k0_pay105 L0))) (k0_pay116 (k0_pay106 L1)) (k0_pay117 (k0_pay105 L0))) (k0_pay119 (k0_pay105 L0))) (k0_pay121 (k0_pay105 L0)) (k0_pay122 (k0_pay106 L1)))) (k0_pay125 (k0_pay106 L1)) (k0_pay126 (k0_pay105 L0))) (k0_pay128 (k0_pay105 L0) (k0_pay106 L1))) (k0_pay130 (k0_pay105 L0)) (k0_pay131 (k0_pay106 L1))) (k0_pay133 (k0_pay105 L0) (k0_pay106 L1))) (k0_pay135 (k0_pay105 L0)) (k0_pay136 (k0_pay106 L1)))
      = tailFn ow ob (distUpTo (k0_pay105 L0) (k0_pay106 L1) 64) := by
  simp only [k0_pay1, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140]
  simp only [dist_base, dist_step, Nat.reduceAdd]
  rfl

/-- What the body leaves in the output block: row `p` is pair `p`'s tail arithmetic over its 64-feature distances. -/
theorem out_eq (x0 : Vec Ideal S4x512x64 .f32) (x1 : Vec Ideal S4x64x512 .f32) (x2 : Vec Ideal S1x4 .f32) (x3 : Vec Ideal S1x4 .f32) :
    out0_4 (F := Ideal) x0 x1 x2 x3 = View.canon ([
      ⟨r0_12, tailFn (View.ld x2 r0_0) (k0_pay2 (View.ld x3 r0_0)) (distUpTo (k0_pay105 (View.ld x0 r0_10)) (k0_pay106 (View.ld x1 r0_11)) 64)⟩,
      ⟨r0_9, tailFn (View.ld x2 r0_0) (k0_pay2 (View.ld x3 r0_0)) (distUpTo (k0_pay69 (View.ld x0 r0_7)) (k0_pay70 (View.ld x1 r0_8)) 64)⟩,
      ⟨r0_6, tailFn (View.ld x2 r0_0) (k0_pay2 (View.ld x3 r0_0)) (distUpTo (k0_pay36 (View.ld x0 r0_4)) (k0_pay37 (View.ld x1 r0_5)) 64)⟩,
      ⟨r0_3, tailFn (View.ld x2 r0_0) (k0_pay2 (View.ld x3 r0_0)) (distUpTo (k0_pay3 (View.ld x0 r0_1)) (k0_pay4 (View.ld x1 r0_2)) 64)⟩] : List (View.Piece (Elt Ideal) S4x4 .f32)) := by
  unfold out0_4
  rw [piece3 (View.ld x0 r0_10) (View.ld x1 r0_11) (View.ld x2 r0_0) (k0_pay2 (View.ld x3 r0_0)),
    piece2 (View.ld x0 r0_7) (View.ld x1 r0_8) (View.ld x2 r0_0) (k0_pay2 (View.ld x3 r0_0)),
    piece1 (View.ld x0 r0_4) (View.ld x1 r0_5) (View.ld x2 r0_0) (k0_pay2 (View.ld x3 r0_0)),
    piece0 (View.ld x0 r0_1) (View.ld x1 r0_2) (View.ld x2 r0_0) (k0_pay2 (View.ld x3 r0_0))]

end Cert.KernelIdeal.Hand

end
-- ==== Proof.TailValue.lean ====
import proofs.«118462_j47072841564314_1_alg».proof.Proof.Tail
import proofs.«118462_j47072841564314_1_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.Hand
open Cert.KernelIdeal Cert.KernelIdeal.Gen Idealize.ShloMosaic Idealize.ShloMosaic.ValueIdx

/-! ## Reading the layout operations at an index -/

/-- The score, zero minus A, at (i, j) is the negation of A at (i, j): zero minus anything is its negation on
    all extended reals. -/
theorem negScore_apply (A : FVec Ideal S512x512 .f32) (i j : Fin 512) :
    negScore (F := Ideal) A (ix2 i j) = -(A (ix2 i j)) := by
  show Ideal.ofBits .f32 0x00000000#32 - _ = _
  rw [Ideal.ofBits_zero_f32, zero_sub]

/-- A column vector spread along the lanes reads, at (i, j), its entry i. -/
theorem spreadRows_apply (v : FVec Ideal S512 .f32) (i j : Fin 512) :
    spreadRows (F := Ideal) v (ix2 i j) = v (ix1 i) := by
  refine (broadcastTo_apply _ broadcasts_S512x1_S512x512 (ix2 i j) (ix2 i (0 : Fin 1)) fun a => ?_).trans ?_
  · match a with
    | ⟨0, _⟩ => rfl
    | ⟨1, _⟩ => rfl
  · exact shapeCast_apply v shapeCasts_S512_S512x1 (ix2 i (0 : Fin 1)) (ix1 i) (by
      rw [Shape.rowMajor_val_one, Shape.rowMajor_val_two]
      show i.val = i.val * 1 + 0
      omega)

/-- A row vector spread along the sublanes reads, at (i, j), its entry j. -/
theorem spreadCols_apply (v : FVec Ideal S512 .f32) (i j : Fin 512) :
    spreadCols (F := Ideal) v (ix2 i j) = v (ix1 j) :=
  (broadcastTo_1b_ab_apply _ broadcasts_S1x512_S512x512 i j).trans
    (shapeCast_a_1a_apply v shapeCasts_S512_S1x512 (0 : Fin 1) j)

/-! ## The index a reduction inserts -/

/-- Reducing along the lanes: row index i with lane k inserted is (i, k). -/
theorem lift_row (i k : Fin 512) : reduces_S512x512_S512.lift (ix1 i) k = ix2 i k := by
  funext a
  match a with
  | ⟨0, _⟩ => rfl
  | ⟨1, _⟩ => rfl

/-- Reducing along the sublanes: column index j with sublane k inserted is (k, j). -/
theorem lift_col (j k : Fin 512) : reduces_S512x512_S512_2.lift (ix1 j) k = ix2 k j := by
  funext a
  match a with
  | ⟨0, _⟩ => rfl
  | ⟨1, _⟩ => rfl

/-- Reducing the one column: the one index with sublane k inserted is (k, 0). -/
theorem lift_one (k : Fin 512) : reduces_S512x1_S1.lift (ix1 (0 : Fin 1)) k = ix2 k (0 : Fin 1) := by
  funext a
  match a with
  | ⟨0, _⟩ => rfl
  | ⟨1, _⟩ => rfl

/-- The pattern of minus infinity denotes the bottom element. -/
theorem ofBits_negInf : FloatOps.ofBits (F := Ideal) .f32 0xFF800000#32 = (⊥ : EReal) := by
  show Ideal.ofBits .f32 0xFF800000#32 = ⊥
  simp [Ideal.ofBits, Ideal.ieee]

/-! ## The reductions -/

/-- The maximum along the lanes at row i is the fold of max from bottom over that row. -/
theorem rowMaxRed_apply (S : FVec Ideal S512x512 .f32) (i : Fin 512) :
    multiReduction .maximumf [1] S512 S 0xFF800000#32 reduces_S512x512_S512 (.inl rfl) rfl (ix1 i)
      = Cert.Align.rowMax (fun i j => S (ix2 i j)) i := by
  refine (Ideal.multiReduction_maximumf_single S 0xFF800000#32 reduces_S512x512_S512 (.inl rfl) rfl (ix1 i)).trans ?_
  have hl : (S ∘ reduces_S512x512_S512.lift (ix1 i)) = fun j : Fin 512 => S (ix2 i j) :=
    funext fun k => congrArg S (lift_row i k)
  exact congrArg₂ (fun b f => (Finset.univ : Finset (Fin 512)).fold max b f) ofBits_negInf hl

/-- The maximum along the sublanes at column j is the fold of max from bottom over that column. -/
theorem colMaxRed_apply (S : FVec Ideal S512x512 .f32) (j : Fin 512) :
    multiReduction .maximumf [0] S512 S 0xFF800000#32 reduces_S512x512_S512_2 (.inl rfl) rfl (ix1 j)
      = Cert.Align.colMax (fun i j => S (ix2 i j)) j := by
  refine (Ideal.multiReduction_maximumf_single S 0xFF800000#32 reduces_S512x512_S512_2 (.inl rfl) rfl (ix1 j)).trans ?_
  have hl : (S ∘ reduces_S512x512_S512_2.lift (ix1 j)) = fun i : Fin 512 => S (ix2 i j) :=
    funext fun k => congrArg S (lift_col j k)
  exact congrArg₂ (fun b f => (Finset.univ : Finset (Fin 512)).fold max b f) ofBits_negInf hl

/-- The sum along the lanes at row i. -/
theorem rowSumRed_apply (X : FVec Ideal S512x512 .f32) (i : Fin 512) :
    multiReduction .add [1] S512 X 0x00000000#32 reduces_S512x512_S512 (.inl rfl) rfl (ix1 i)
      = ∑ j : Fin 512, X (ix2 i j) :=
  (Ideal.multiReduction_add_single X 0x00000000#32 reduces_S512x512_S512 (.inl rfl) rfl (ix1 i)).trans
    (Finset.sum_congr rfl fun k _ => congrArg X (lift_row i k))

/-- The sum along the sublanes at column j. -/
theorem colSumRed_apply (X : FVec Ideal S512x512 .f32) (j : Fin 512) :
    multiReduction .add [0] S512 X 0x00000000#32 reduces_S512x512_S512_2 (.inl rfl) rfl (ix1 j)
      = ∑ i : Fin 512, X (ix2 i j) :=
  (Ideal.multiReduction_add_single X 0x00000000#32 reduces_S512x512_S512_2 (.inl rfl) rfl (ix1 j)).trans
    (Finset.sum_congr rfl fun k _ => congrArg X (lift_col j k))

/-! ## The two softmaxes and the alignment -/

/-- The exponentials of the row softmax at (i, j): the exponential of the score minus its row's maximum. -/
theorem rowExp_apply (S : FVec Ideal S512x512 .f32) (i j : Fin 512) :
    rowExp S (ix2 i j) = Ideal.exp (S (ix2 i j) - Cert.Align.rowMax (fun i j => S (ix2 i j)) i) :=
  congrArg (fun m => Ideal.exp (S (ix2 i j) - m)) ((spreadRows_apply _ i j).trans (rowMaxRed_apply S i))

/-- The exponentials of the column softmax at (i, j): the exponential of the score minus its column's maximum. -/
theorem colExp_apply (S : FVec Ideal S512x512 .f32) (i j : Fin 512) :
    colExp S (ix2 i j) = Ideal.exp (S (ix2 i j) - Cert.Align.colMax (fun i j => S (ix2 i j)) j) :=
  congrArg (fun m => Ideal.exp (S (ix2 i j) - m)) ((spreadCols_apply _ i j).trans (colMaxRed_apply S j))

/-- The row softmax at (i, j) is the mathematical one. -/
theorem rowSoft_apply (S : FVec Ideal S512x512 .f32) (i j : Fin 512) :
    rowSoft S (ix2 i j) = Cert.Align.rowSoft (fun i j => S (ix2 i j)) i j := by
  unfold Cert.Align.rowSoft
  refine congrArg₂ Ideal.div (rowExp_apply S i j) ?_
  refine (spreadRows_apply _ i j).trans ((rowSumRed_apply (rowExp S) i).trans ?_)
  exact Finset.sum_congr rfl fun j' _ => rowExp_apply S i j'

/-- The column softmax at (i, j) is the mathematical one. -/
theorem colSoft_apply (S : FVec Ideal S512x512 .f32) (i j : Fin 512) :
    colSoft S (ix2 i j) = Cert.Align.colSoft (fun i j => S (ix2 i j)) i j := by
  unfold Cert.Align.colSoft
  refine congrArg₂ Ideal.div (colExp_apply S i j) ?_
  refine (spreadCols_apply _ i j).trans ((colSumRed_apply (colExp S) j).trans ?_)
  exact Finset.sum_congr rfl fun i' _ => colExp_apply S i' j

/-- The alignment at (i, j) is the mathematical one. -/
theorem alignM_apply (S : FVec Ideal S512x512 .f32) (i j : Fin 512) :
    alignM S (ix2 i j) = Cert.Align.align (fun i j => S (ix2 i j)) i j := by
  unfold Cert.Align.align
  rw [← rowSoft_apply S i j, ← colSoft_apply S i j]
  rfl

/-! ## The totals and the mean -/

/-- The total of a matrix, lanes first and then sublanes, is the double sum of its entries. -/
theorem total_apply (X : FVec Ideal S512x512 .f32) :
    total X (ix2 (0 : Fin 1) (0 : Fin 1)) = ∑ i : Fin 512, ∑ j : Fin 512, X (ix2 i j) := by
  refine (shapeCast_a_1a_apply _ shapeCasts_S1_S1x1 (0 : Fin 1) (0 : Fin 1)).trans ?_
  refine (Ideal.multiReduction_add_single _ 0x00000000#32 reduces_S512x1_S1 (.inl rfl) rfl (ix1 (0 : Fin 1))).trans ?_
  refine Finset.sum_congr rfl fun k _ => ?_
  refine (congrArg _ (lift_one k)).trans ?_
  refine (shapeCast_apply _ shapeCasts_S512_S512x1 (ix2 k (0 : Fin 1)) (ix1 k) (by
      rw [Shape.rowMajor_val_one, Shape.rowMajor_val_two]
      show k.val = k.val * 1 + 0
      omega)).trans ?_
  exact rowSumRed_apply X k

/-- The alignment-weighted mean of the scores is the mathematical one. -/
theorem meanScore_apply (S : FVec Ideal S512x512 .f32) :
    meanScore S (ix2 (0 : Fin 1) (0 : Fin 1)) = Cert.Align.cval (fun i j => S (ix2 i j)) := by
  unfold Cert.Align.cval
  refine congrArg₂ Ideal.div ((total_apply _).trans ?_) ((total_apply _).trans ?_)
  · exact Finset.sum_congr rfl fun i _ => Finset.sum_congr rfl fun j _ =>
      congrArg (fun m => m * S (ix2 i j)) (alignM_apply S i j)
  · exact Finset.sum_congr rfl fun i _ => Finset.sum_congr rfl fun j _ => alignM_apply S i j

/-- One pair's row of the result, read at column k: the alignment-weighted mean of the scores -A, times the weight, plus the bias. -/
theorem tailFn_apply (ow : Vec Ideal S1x4 .f32) (ob : FVec Ideal S1x4 .f32) (A : FVec Ideal S512x512 .f32) (k : Fin 4) :
    tailFn (F := Ideal) ow ob A (ix2 (0 : Fin 1) k)
      = Cert.Align.cval (fun i j => -(A (ix2 i j))) * ow (ix2 (0 : Fin 1) k) + ob (ix2 (0 : Fin 1) k) := by
  refine congrArg (fun m => m * ow (ix2 (0 : Fin 1) k) + ob (ix2 (0 : Fin 1) k)) ?_
  refine (broadcastTo_apply _ broadcasts_S1x1_S1x4 (ix2 (0 : Fin 1) k) (ix2 (0 : Fin 1) (0 : Fin 1)) fun a => ?_).trans ?_
  · match a with
    | ⟨0, _⟩ => rfl
    | ⟨1, _⟩ => rfl
  · refine (meanScore_apply (negScore A)).trans ?_
    exact congrArg Cert.Align.cval (funext fun i => funext fun j => negScore_apply A i j)

end Cert.KernelIdeal.Hand
end
-- ==== Proof.InputBlocks.lean ====
/-
  What the kernel's four input windows hold, as entries of the program's argument arrays.

  Before its one region the program cuts the eight row blocks of the first argument (8 × 512 × 64) into the
  first four and the last four, transposes each of the last four (to 64 × 512), and lays the bias argument
  (4) out as one row (1 × 4). The grid has one point and each window's block is its whole array, so the
  block index is zero on every axis and an element of a block sits at the same coordinates in the array.
  Hence: window 0 at (p, i, d) is the argument at (p, i, d); window 1 at (p, d, j) is the argument at
  (4 + p, j, d); window 2 is the weight argument; window 3 at (0, k) is the bias argument at k.
-/
import proofs.«118462_j47072841564314_1_alg».proof.Proof.Gen.KernelIdeal.Frame
import proofs.«118462_j47072841564314_1_alg».proof.Proof.Spec
import Idealize.ShloMosaic.Lib.Pipeline.Value
import Idealize.ShloMosaic.Lib.ValueIdx
import Idealize.ShloMosaic.Lib.ValueLayout
import Idealize.ShloMosaic.Lib.StableHlo.Run
noncomputable section
namespace Cert.KernelIdeal.Hand
open Cert.KernelIdeal Cert.KernelIdeal.Gen Idealize.ShloMosaic Idealize.ShloMosaic.TcCoe Idealize.SL.Sem Idealize.ShloMosaic.ValueIdx
variable (m : (ℓ : Loc nD τ sig) → Buf (Elt Ideal) ℓ)

/-! ## What the region finds in the arrays the host operations wrote -/

/-- `main_v0` at region entry: the argument's row blocks 0 to 3. -/
theorem V_first (c : Dev nD) :
    (V m c main_v0 : S4x512x64.Idx → EReal)
      = extractStridedSlice S4x512x64 ![0, 0, 0] (m ((c.tc : Thread nD τ).loc main_arg0)) slices_S8x512x64_S4x512x64_0_0_0 := by
  dsimp only [Gen.V, Gen.hostOps0]; after_results

/-- `main_v2` at region entry: the argument's row blocks 4 to 7, each transposed. -/
theorem V_second (c : Dev nD) :
    (V m c main_v2 : S4x64x512.Idx → EReal)
      = transpose S4x64x512 [0, 2, 1]
          (extractStridedSlice S4x512x64 ![4, 0, 0] (m ((c.tc : Thread nD τ).loc main_arg0)) slices_S8x512x64_S4x512x64_4_0_0)
          transposes_S4x512x64_S4x64x512_0_2_1 := by
  dsimp only [Gen.V, Gen.hostOps0]; after_results

/-- `main_v3` at region entry: the bias argument as one row. -/
theorem V_bias (c : Dev nD) :
    (V m c main_v3 : S1x4.Idx → EReal)
      = shapeCast S1x4 (m ((c.tc : Thread nD τ).loc main_arg2)) shapeCasts_S4_S1x4 := by
  dsimp only [Gen.V, Gen.hostOps0]; after_results; rfl

/-! ## Each window's block is its whole array: the one grid point's block index is zero on every axis -/

theorem idx_first : ∀ t : Fin cfg0.N, win0_0.index t (0 : Fin 3) = 0 ∧ win0_0.index t (1 : Fin 3) = 0 ∧ win0_0.index t (2 : Fin 3) = 0 :=
  (by decide +kernel : ∀ t : Fin grid0.N, _)
theorem idx_second : ∀ t : Fin cfg0.N, win0_1.index t (0 : Fin 3) = 0 ∧ win0_1.index t (1 : Fin 3) = 0 ∧ win0_1.index t (2 : Fin 3) = 0 :=
  (by decide +kernel : ∀ t : Fin grid0.N, _)
theorem idx_weight : ∀ t : Fin cfg0.N, win0_2.index t (0 : Fin 2) = 0 ∧ win0_2.index t (1 : Fin 2) = 0 :=
  (by decide +kernel : ∀ t : Fin grid0.N, _)
theorem idx_bias : ∀ t : Fin cfg0.N, win0_3.index t (0 : Fin 2) = 0 ∧ win0_3.index t (1 : Fin 2) = 0 :=
  (by decide +kernel : ∀ t : Fin grid0.N, _)

/-- An element of window 0's block sits at the same coordinates in its array. -/
theorem emb_first (t : Fin cfg0.N) (p : Fin 4) (i : Fin 512) (d : Fin 64) :
    ((cfg0.win 0).blk t).view.emb (ix3 p i d) = (ix3 p i d : S4x512x64.Idx) := by
  obtain ⟨e0, e1, e2⟩ := idx_first t
  funext a; apply Fin.ext
  match a with
  | ⟨0, _⟩ => show win0_0.index t (0 : Fin 3) * 4 + 1 * p.val = p.val; omega
  | ⟨1, _⟩ => show win0_0.index t (1 : Fin 3) * 512 + 1 * i.val = i.val; omega
  | ⟨2, _⟩ => show win0_0.index t (2 : Fin 3) * 64 + 1 * d.val = d.val; omega

/-- An element of window 1's block sits at the same coordinates in its array. -/
theorem emb_second (t : Fin cfg0.N) (p : Fin 4) (d : Fin 64) (j : Fin 512) :
    ((cfg0.win 1).blk t).view.emb (ix3 p d j) = (ix3 p d j : S4x64x512.Idx) := by
  obtain ⟨e0, e1, e2⟩ := idx_second t
  funext a; apply Fin.ext
  match a with
  | ⟨0, _⟩ => show win0_1.index t (0 : Fin 3) * 4 + 1 * p.val = p.val; omega
  | ⟨1, _⟩ => show win0_1.index t (1 : Fin 3) * 64 + 1 * d.val = d.val; omega
  | ⟨2, _⟩ => show win0_1.index t (2 : Fin 3) * 512 + 1 * j.val = j.val; omega

/-- An element of window 2's block sits at the same coordinates in its array. -/
theorem emb_weight (t : Fin cfg0.N) (u : Fin 1) (k : Fin 4) :
    ((cfg0.win 2).blk t).view.emb (ix2 u k) = (ix2 u k : S1x4.Idx) := by
  obtain ⟨e0, e1⟩ := idx_weight t
  funext a; apply Fin.ext
  match a with
  | ⟨0, _⟩ => show win0_2.index t (0 : Fin 2) * 1 + 1 * u.val = u.val; omega
  | ⟨1, _⟩ => show win0_2.index t (1 : Fin 2) * 4 + 1 * k.val = k.val; omega

/-- An element of window 3's block sits at the same coordinates in its array. -/
theorem emb_bias (t : Fin cfg0.N) (u : Fin 1) (k : Fin 4) :
    ((cfg0.win 3).blk t).view.emb (ix2 u k) = (ix2 u k : S1x4.Idx) := by
  obtain ⟨e0, e1⟩ := idx_bias t
  funext a; apply Fin.ext
  match a with
  | ⟨0, _⟩ => show win0_3.index t (0 : Fin 2) * 1 + 1 * u.val = u.val; omega
  | ⟨1, _⟩ => show win0_3.index t (1 : Fin 2) * 4 + 1 * k.val = k.val; omega

/-! ## The four windows -/

/-- Window 0's block holds the first four row blocks of the argument: entry (p, i, d) is the argument's (p, i, d). -/
theorem first_seq (c : Dev nD) (t : Fin cfg0.N) (p : Fin 4) (i : Fin 512) (d : Fin 64) :
    (iblk m c 0 t : Vec Ideal S4x512x64 .f32) (ix3 p i d)
      = (m ((c.tc : Thread nD τ).loc main_arg0) : Vec Ideal S8x512x64 .f32) (ix3 (Cert.Align.lo p) i d) := by
  unfold iblk
  show V m c main_v0 (((cfg0.win 0).blk t).view.emb (ix3 p i d)) = _
  rw [emb_first, V_first]
  exact extractStridedSlice_apply ![0, 0, 0] _ slices_S8x512x64_S4x512x64_0_0_0 (ix3 p i d) (ix3 (Cert.Align.lo p) i d) fun a => by
    match a with
    | ⟨0, _⟩ => show p.val = 0 + p.val; omega
    | ⟨1, _⟩ => show i.val = 0 + i.val; omega
    | ⟨2, _⟩ => show d.val = 0 + d.val; omega
/-- Window 1's block holds the last four row blocks, each transposed: entry (p, d, j) is the argument's (4 + p, j, d). -/
theorem second_seq (c : Dev nD) (t : Fin cfg0.N) (p : Fin 4) (d : Fin 64) (j : Fin 512) :
    (iblk m c 1 t : Vec Ideal S4x64x512 .f32) (ix3 p d j)
      = (m ((c.tc : Thread nD τ).loc main_arg0) : Vec Ideal S8x512x64 .f32) (ix3 (Cert.Align.hi p) j d) := by
  unfold iblk
  show V m c main_v2 (((cfg0.win 1).blk t).view.emb (ix3 p d j)) = _
  rw [emb_second, V_second]
  refine (transpose_ix3_021_apply _ transposes_S4x512x64_S4x64x512_0_2_1 p d j).trans ?_
  exact extractStridedSlice_apply ![4, 0, 0] _ slices_S8x512x64_S4x512x64_4_0_0 (ix3 p j d) (ix3 (Cert.Align.hi p) j d) fun a => by
    match a with
    | ⟨0, _⟩ => show 4 + p.val = 4 + p.val; rfl
    | ⟨1, _⟩ => show j.val = 0 + j.val; omega
    | ⟨2, _⟩ => show d.val = 0 + d.val; omega
/-- Window 2's block is the weight argument. -/
theorem weight_blk (c : Dev nD) (t : Fin cfg0.N) (k : Fin 4) :
    (iblk m c 2 t : Vec Ideal S1x4 .f32) (ix2 (0 : Fin 1) k)
      = (m ((c.tc : Thread nD τ).loc main_arg1) : Vec Ideal S1x4 .f32) (ix2 (0 : Fin 1) k) := by
  unfold iblk
  show V m c main_arg1 (((cfg0.win 2).blk t).view.emb (ix2 (0 : Fin 1) k)) = _
  rw [emb_weight, V_main_arg1]
/-- Window 3's block is the bias argument laid out as one row. -/
theorem bias_blk (c : Dev nD) (t : Fin cfg0.N) (k : Fin 4) :
    (iblk m c 3 t : Vec Ideal S1x4 .f32) (ix2 (0 : Fin 1) k)
      = (m ((c.tc : Thread nD τ).loc main_arg2) : Vec Ideal S4 .f32) (ix1 k) := by
  unfold iblk
  show V m c main_v3 (((cfg0.win 3).blk t).view.emb (ix2 (0 : Fin 1) k)) = _
  rw [emb_bias, V_bias]
  exact shapeCast_a_1a_apply _ shapeCasts_S4_S1x4 (0 : Fin 1) k

end Cert.KernelIdeal.Hand
end
-- ==== Proof.Result.lean ====
/-
  The whole result array as ONE function of the three argument arrays: entry `(p, k)` is pair `p`'s
  alignment-weighted mean score times `weight k` plus `bias k`, the pair's scores being minus the L1
  distances between the rows of row block `p` and of row block `4 + p` of the sequences argument.
-/
import proofs.«118462_j47072841564314_1_alg».proof.Proof.Spec

noncomputable section

namespace Cert.Align

open Idealize.ShloMosaic Idealize.ShloMosaic.ValueIdx

/-- Entry `(p, k)` of the result. -/
def pairOut (a0 : (⟨3, ![8, 512, 64]⟩ : Shape).Idx → EReal) (a1 : (⟨2, ![1, 4]⟩ : Shape).Idx → EReal)
    (a2 : (⟨1, ![4]⟩ : Shape).Idx → EReal) (p k : Fin 4) : EReal :=
  cval (fun i j => -(dist (fun i d => a0 (ix3 (lo p) i d)) (fun j d => a0 (ix3 (hi p) j d)) i j)) * a1 (ix2 (0 : Fin 1) k)
    + a2 (ix1 k)

/-- The result array. -/
def result (a0 : (⟨3, ![8, 512, 64]⟩ : Shape).Idx → EReal) (a1 : (⟨2, ![1, 4]⟩ : Shape).Idx → EReal)
    (a2 : (⟨1, ![4]⟩ : Shape).Idx → EReal) : (⟨2, ![4, 4]⟩ : Shape).Idx → EReal :=
  fun y => pairOut a0 a1 a2 ⟨(y 0).val, idx2_lt0 y⟩ ⟨(y 1).val, idx2_lt1 y⟩

theorem result_apply (a0 : (⟨3, ![8, 512, 64]⟩ : Shape).Idx → EReal) (a1 : (⟨2, ![1, 4]⟩ : Shape).Idx → EReal)
    (a2 : (⟨1, ![4]⟩ : Shape).Idx → EReal) (p k : Fin 4) : result a0 a1 a2 (ix2 p k) = pairOut a0 a1 a2 p k := rfl

end Cert.Align

end
-- ==== Proof.KernelValue.lean ====
/-
  The kernel's result array, whole: after the run it holds `Cert.Align.result` of the three arguments.

  The one grid point's body leaves, in row `p` of the output block, pair `p`'s tail arithmetic over its
  distance matrix (`out_eq`); read at column `k` that is the alignment-weighted mean of the pair's scores
  times `weight k` plus `bias k` (`tailFn_apply`, `distUpTo_all`); the pair's two blocks are row blocks `p`
  and `4 + p` of the sequences argument, the second one transposed by the host (`first_seq`, `second_seq`).
  The four rows tile the 4 × 4 block, the block is the whole array, and the one point writes it back.
-/
import proofs.«118462_j47072841564314_1_alg».proof.Proof.Gen.KernelIdeal.Value
import proofs.«118462_j47072841564314_1_alg».proof.Proof.Pieces
import proofs.«118462_j47072841564314_1_alg».proof.Proof.TailValue
import proofs.«118462_j47072841564314_1_alg».proof.Proof.InputBlocks
import proofs.«118462_j47072841564314_1_alg».proof.Proof.Result
import Idealize.ShloMosaic.Lib.ValueLayout

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/-- Row block `q` of a stack of four 512 × 64 blocks, loaded and with its unit axis dropped, at `(i, d)`. -/
theorem seqBlock_apply (X : Vec Ideal S4x512x64 .f32) (q : ℕ) (hq : q < 4)
    (inb : ∀ a, (![q, 0, 0] : Fin 3 → ℕ) a + S1x512x64.size a ≤ S4x512x64.size a) (i : Fin 512) (d : Fin 64) :
    shapeCast S512x64 (View.ld X (Rect.unit (s := S4x512x64) ![q, 0, 0] S1x512x64.size inb)) shapeCasts_S1x512x64_S512x64 (ix2 i d)
      = X (ix3 (⟨q, hq⟩ : Fin 4) i d) := by
  refine (shapeCast_1ab_ab_apply _ shapeCasts_S1x512x64_S512x64 i d).trans ?_
  show X ((Rect.unit (s := S4x512x64) ![q, 0, 0] S1x512x64.size inb).emb (ix3 (0 : Fin 1) i d)) = _
  refine congrArg X (funext fun a => Fin.ext ?_)
  match a with
  | ⟨0, _⟩ => show q + 1 * 0 = q; omega
  | ⟨1, _⟩ => show 0 + 1 * i.val = i.val; omega
  | ⟨2, _⟩ => show 0 + 1 * d.val = d.val; omega

/-- The same for a stack of four 64 × 512 blocks, at `(d, j)`. -/
theorem seqBlockT_apply (X : Vec Ideal S4x64x512 .f32) (q : ℕ) (hq : q < 4)
    (inb : ∀ a, (![q, 0, 0] : Fin 3 → ℕ) a + S1x64x512.size a ≤ S4x64x512.size a) (d : Fin 64) (j : Fin 512) :
    shapeCast S64x512 (View.ld X (Rect.unit (s := S4x64x512) ![q, 0, 0] S1x64x512.size inb)) shapeCasts_S1x64x512_S64x512 (ix2 d j)
      = X (ix3 (⟨q, hq⟩ : Fin 4) d j) := by
  refine (shapeCast_1ab_ab_apply _ shapeCasts_S1x64x512_S64x512 d j).trans ?_
  show X ((Rect.unit (s := S4x64x512) ![q, 0, 0] S1x64x512.size inb).emb (ix3 (0 : Fin 1) d j)) = _
  refine congrArg X (funext fun a => Fin.ext ?_)
  match a with
  | ⟨0, _⟩ => show q + 1 * 0 = q; omega
  | ⟨1, _⟩ => show 0 + 1 * d.val = d.val; omega
  | ⟨2, _⟩ => show 0 + 1 * j.val = j.val; omega

theorem hz2 : (![0, 0] : Fin 2 → Nat) = fun _ => 0 := funext fun a => by fin_cases a <;> rfl

/-- ONE PAIR'S ROW: if `z0`, `z1t` are row blocks `q` and `4 + q` (transposed) of the sequences `a0`, and `ow`, `ob`
    the weight and the bias, the pair's tail arithmetic over its 64-feature distances is entry `(q, k)` of the result. -/
theorem pair_row (a0 : Vec Ideal S8x512x64 .f32) (a1 : Vec Ideal S1x4 .f32) (a2 : Vec Ideal S4 .f32) (q : ℕ) (hq : q < 4)
    (z0 : FVec Ideal S512x64 .f32) (z1t : FVec Ideal S64x512 .f32) (ow : Vec Ideal S1x4 .f32) (ob : FVec Ideal S1x4 .f32)
    (h0 : ∀ (i : Fin 512) (d : Fin 64), z0 (ix2 i d) = a0 (ix3 (Cert.Align.lo ⟨q, hq⟩) i d))
    (h1 : ∀ (d : Fin 64) (j : Fin 512), z1t (ix2 d j) = a0 (ix3 (Cert.Align.hi ⟨q, hq⟩) j d))
    (hw : ∀ k : Fin 4, ow (ix2 (0 : Fin 1) k) = a1 (ix2 (0 : Fin 1) k))
    (hb : ∀ k : Fin 4, ob (ix2 (0 : Fin 1) k) = a2 (ix1 k)) (k : Fin 4) :
    tailFn (F := Ideal) ow ob (distUpTo z0 z1t 64) (ix2 (0 : Fin 1) k) = Cert.Align.pairOut a0 a1 a2 ⟨q, hq⟩ k := by
  rw [tailFn_apply, hw, hb]
  unfold Cert.Align.pairOut
  have hS : (fun (i j : Fin 512) => -(distUpTo z0 z1t 64 (ix2 i j)))
      = fun (i j : Fin 512) => -(Cert.Align.dist (fun i d => a0 (ix3 (Cert.Align.lo ⟨q, hq⟩) i d)) (fun j d => a0 (ix3 (Cert.Align.hi ⟨q, hq⟩) j d)) i j) := by
    funext i j
    rw [distUpTo_all]
    simp only [h0, h1]
  rw [hS]

variable (m : (ℓ : Loc nD τ sig) → Buf (Elt Ideal) ℓ) (ρ : Dev nD → PrngReg)

/-- The result array as a function of core `c`'s arguments. -/
abbrev kres (c : Dev nD) : Buf (Elt Ideal) ((c : Thread nD τ).loc main_v4) :=
  Cert.Align.result (m ((c.tc : Thread nD τ).loc main_arg0)) (m ((c.tc : Thread nD τ).loc main_arg1)) (m ((c.tc : Thread nD τ).loc main_arg2))

/-- A row stored at row `q` of the 4 × 4 block agrees with the result array there, when it is pair `q`'s row. -/
theorem piece_row (c : Dev nD) (q : ℕ) (hq : q < 4) (inb : ∀ a, (![q, 0] : Fin 2 → ℕ) a + S1x4.size a ≤ S4x4.size a)
    (P : FVec Ideal S1x4 .f32)
    (hP : ∀ k : Fin 4, P (ix2 (0 : Fin 1) k) = Cert.Align.pairOut (m ((c.tc : Thread nD τ).loc main_arg0)) (m ((c.tc : Thread nD τ).loc main_arg1)) (m ((c.tc : Thread nD τ).loc main_arg2)) ⟨q, hq⟩ k)
    (x : S1x4.Idx) :
    P x = kres m c ((Rect.unit (s := S4x4) ![q, 0] S1x4.size inb).emb x) := by
  obtain ⟨u, k, rfl⟩ : ∃ (u : Fin 1) (k : Fin 4), x = ix2 u k := ⟨⟨(x 0).val, idx2_lt0 x⟩, ⟨(x 1).val, idx2_lt1 x⟩, eq_ix2 x⟩
  obtain rfl : u = 0 := Subsingleton.elim _ _
  rw [hP k]
  have he : (Rect.unit (s := S4x4) ![q, 0] S1x4.size inb).emb (ix2 (0 : Fin 1) k) = ix2 (⟨q, hq⟩ : Fin 4) k := by
    funext a; apply Fin.ext
    match a with
    | ⟨0, _⟩ => show q + 1 * 0 = q; omega
    | ⟨1, _⟩ => show 0 + 1 * k.val = k.val; omega
  rw [he]
  rfl

/-- The printed index map of the output window: its one block is block (0, 0). -/
theorem out_idx : ∀ t : Fin cfg0.N, win0_4.index t (0 : Fin 2) = 0 ∧ win0_4.index t (1 : Fin 2) = 0 :=
  (by decide +kernel : ∀ t : Fin grid0.N, _)

/-- WHAT THE POINT WRITES BACK is the block of the result array. -/
theorem flushed_eq (c : Dev nD) (t : Fin cfg0.N) :
    (dats m 0 c).flushed 4 t = ((cfg0.win 4).blk t).view.read (Elt Ideal) (kres m c) := by
  rw [Cert.KernelIdeal.Value.flushed4, out_eq]
  obtain ⟨e0, e1⟩ := out_idx t
  funext y
  have hy : ((cfg0.win 4).blk t).view.emb y = (y : S4x4.Idx) := by
    funext a; apply Fin.ext
    match a with
    | ⟨0, _⟩ => show win0_4.index t (0 : Fin 2) * 4 + 1 * (y 0).val = (y 0).val; omega
    | ⟨1, _⟩ => show win0_4.index t (1 : Fin 2) * 4 + 1 * (y 1).val = (y 1).val; omega
  show View.canon _ (y : S4x4.Idx) = kres m c (((cfg0.win 4).blk t).view.emb y)
  rw [hy]
  refine View.canon_apply_of_pieces (kres m c) _ ?_ y (cover0_4 _ _ _ _ y)
  have hw : ∀ k : Fin 4, View.ld (iblk m c 2 t) r0_0 (ix2 (0 : Fin 1) k) = m ((c.tc : Thread nD τ).loc main_arg1) (ix2 (0 : Fin 1) k) := fun k =>
    (congrFun (View.ld_unit_zero (S := S1x4) hz2 _ (iblk m c 2 t)) (ix2 (0 : Fin 1) k)).trans (weight_blk m c t k)
  have hb : ∀ k : Fin 4, k0_pay2 (View.ld (iblk m c 3 t) r0_0) (ix2 (0 : Fin 1) k) = m ((c.tc : Thread nD τ).loc main_arg2) (ix1 k) := fun k => by
    show shapeCast S1x4 (View.ld (iblk m c 3 t) r0_0) shapeCasts_S1x4_S1x4 (ix2 (0 : Fin 1) k) = _
    refine (congrFun (shapeCast_self (s := S1x4) _ shapeCasts_S1x4_S1x4) (ix2 (0 : Fin 1) k)).trans ?_
    refine (congrFun (View.ld_unit_zero (S := S1x4) hz2 _ (iblk m c 3 t)) (ix2 (0 : Fin 1) k)).trans ?_
    exact bias_blk m c t k
  intro pc hpc x
  simp only [List.mem_cons, List.mem_singleton, List.not_mem_nil, or_false] at hpc
  rcases hpc with rfl | rfl | rfl | rfl
  · exact piece_row m c 3 (by omega) inb_S4x4_S1x4_3_0 _ (pair_row _ _ _ 3 (by omega) _ _ _ _
      (fun i d => (seqBlock_apply (iblk m c 0 t) 3 (by omega) inb_S4x512x64_S1x512x64_3_0_0 i d).trans (first_seq m c t ⟨3, by omega⟩ i d))
      (fun d j => (seqBlockT_apply (iblk m c 1 t) 3 (by omega) inb_S4x64x512_S1x64x512_3_0_0 d j).trans (second_seq m c t ⟨3, by omega⟩ d j)) hw hb) x
  · exact piece_row m c 2 (by omega) inb_S4x4_S1x4_2_0 _ (pair_row _ _ _ 2 (by omega) _ _ _ _
      (fun i d => (seqBlock_apply (iblk m c 0 t) 2 (by omega) inb_S4x512x64_S1x512x64_2_0_0 i d).trans (first_seq m c t ⟨2, by omega⟩ i d))
      (fun d j => (seqBlockT_apply (iblk m c 1 t) 2 (by omega) inb_S4x64x512_S1x64x512_2_0_0 d j).trans (second_seq m c t ⟨2, by omega⟩ d j)) hw hb) x
  · exact piece_row m c 1 (by omega) inb_S4x4_S1x4_1_0 _ (pair_row _ _ _ 1 (by omega) _ _ _ _
      (fun i d => (seqBlock_apply (iblk m c 0 t) 1 (by omega) inb_S4x512x64_S1x512x64_1_0_0 i d).trans (first_seq m c t ⟨1, by omega⟩ i d))
      (fun d j => (seqBlockT_apply (iblk m c 1 t) 1 (by omega) inb_S4x64x512_S1x64x512_1_0_0 d j).trans (second_seq m c t ⟨1, by omega⟩ d j)) hw hb) x
  · exact piece_row m c 0 (by omega) inb_S4x4_S1x4_0_0 _ (pair_row _ _ _ 0 (by omega) _ _ _ _
      (fun i d => (seqBlock_apply (iblk m c 0 t) 0 (by omega) inb_S4x512x64_S1x512x64_0_0_0 i d).trans (first_seq m c t ⟨0, by omega⟩ i d))
      (fun d j => (seqBlockT_apply (iblk m c 1 t) 0 (by omega) inb_S4x64x512_S1x64x512_0_0_0 d j).trans (second_seq m c t ⟨0, by omega⟩ d j)) hw hb) x

/-- THE ARRAY after the run: the one point's block is the whole array. -/
theorem final (c : Dev nD) : (dats m 0 c).arrAt 4 cfg0.N = kres m c :=
  (dats m 0 c).arrAt_eq_of_cover 4 (kres m c) (fun t _ => flushed_eq m c t) fun i =>
    ⟨t0_0, flush0_4 t0_0, by
      show i ∈ ((View.whole main_v4).slice (win0_4.rect t0_0)).set
      rw [View.set_slice_whole, Rect.mem_set_unit]
      intro a
      have h0 : (i 0 : Nat) < 4 := (i 0).isLt
      have h1 : (i 1 : Nat) < 4 := (i 1).isLt
      match a with
      | ⟨0, _⟩ =>
        show win0_4.index t0_0 0 * win0_4.size 0 ≤ (i 0 : Nat) ∧ (i 0 : Nat) < win0_4.index t0_0 0 * win0_4.size 0 + win0_4.xsize (grid0.coords t0_0) 0
        rw [show win0_4.index t0_0 0 * win0_4.size 0 = 0 from by decide +kernel, show win0_4.xsize (grid0.coords t0_0) 0 = 4 from by decide +kernel]; omega
      | ⟨1, _⟩ =>
        show win0_4.index t0_0 1 * win0_4.size 1 ≤ (i 1 : Nat) ∧ (i 1 : Nat) < win0_4.index t0_0 1 * win0_4.size 1 + win0_4.xsize (grid0.coords t0_0) 1
        rw [show win0_4.index t0_0 1 * win0_4.size 1 = 0 from by decide +kernel, show win0_4.xsize (grid0.coords t0_0) 1 = 4 from by decide +kernel]; omega⟩

/-- The kernel's run, read: the result array at `Cert.Align.result` of the arguments, the arguments unchanged. -/
theorem run : θ_run defs (onTc (τ := τ) (main (F := Ideal))) ⟨m, fun _ => 0, ρ⟩ fun r => ∀ c : Dev nD,
      r.2.mem ((c : Thread nD τ).loc main_v4) = kres m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Hand

end
-- ==== Proof.RefEnds.lean ====
import proofs.«118462_j47072841564314_1_alg».proof.Proof.Gen.ReferenceIdeal.Read
import proofs.«118462_j47072841564314_1_alg».proof.Proof.Spec
import Idealize.ShloMosaic.Lib.ValueIdx
import Idealize.ShloMosaic.PureOps.Ideal.Laws
noncomputable section
namespace Cert.ReferenceIdeal.RefValue
open Cert.ReferenceIdeal Cert.ReferenceIdeal.Gen Cert.ReferenceIdeal.Read Idealize.ShloMosaic Idealize.ShloMosaic.ValueIdx

/-! ## The score end: where each operand of the subtraction is read

Element `(p, i, j, d)` of the broadcast first operand is element `(p, i, d)` of the first slice, which is element
`(p, i, d)` of the input; element `(p, i, j, d)` of the broadcast second operand is element `(p, j, d)` of the second
slice, which is element `(4 + p, j, d)` of the input. -/

/-- The first operand of the subtraction at `(p, i, j, d)` is read from the input at `(p, i, d)`. -/
theorem idx_left (p : Fin 4) (i j : Fin 512) (d : Fin 64) :
    idx_main_v0 (idx_main_v2 (idx_main_v4 (idx_main_v8 (ix3 p i j) d))) = ix3 (Cert.Align.lo p) i d :=
  funext fun a => match a with
    | ⟨0, _⟩ => Fin.ext rfl
    | ⟨1, _⟩ => Fin.ext rfl
    | ⟨2, _⟩ => Fin.ext rfl

/-- The second operand of the subtraction at `(p, i, j, d)` is read from the input at `(4 + p, j, d)`. -/
theorem idx_right (p : Fin 4) (i j : Fin 512) (d : Fin 64) :
    idx_main_v1 (idx_main_v3 (idx_main_v5 (idx_main_v8 (ix3 p i j) d))) = ix3 (Cert.Align.hi p) j d :=
  funext fun a => match a with
    | ⟨0, _⟩ => Fin.ext rfl
    | ⟨1, _⟩ => Fin.ext rfl
    | ⟨2, _⟩ => Fin.ext rfl

/-- The reference's score of pair p at (i, j): minus the L1 distance between row i of block p and row j of block 4 + p. -/
theorem ref_score (x0 : (⟨S8x512x64, .f32⟩ : BufTy).Contents (Elt Ideal)) (p : Fin 4) (i j : Fin 512) :
    val_main_v9 (F := Ideal) x0 (ix3 p i j)
      = -(Cert.Align.dist (fun i d => x0 (ix3 (Cert.Align.lo p) i d)) (fun j d => x0 (ix3 (Cert.Align.hi p) j d)) i j) := by
  rw [val_main_v9_apply, val_main_v8_apply, val_main_cst_apply]
  simp only [val_main_v7_apply, val_main_v6_apply, val_main_v4_apply, val_main_v5_apply, val_main_v2_apply,
    val_main_v3_apply, val_main_v0_apply, val_main_v1_apply, idx_left, idx_right]
  -- the sum starts from the constant 0, the absolute value is `max a (-a)`, and the whole is negated
  simp only [Ideal.hostNegf_def, Ideal.negf_def, Ideal.hostAbsf_def, Ideal.absf_def, Ideal.subf_def, Ideal.ofBits_def,
    Ideal.ofBits_zero_f32, zero_add]
  rfl

/-! ## The output end

The reshape reads result element `(p, k)` at `(p, 0, k)` of the sum: the row-major position `p * 4 + k` splits back
into `p` and `k` because `k < 4`. -/

/-- The reshape's source index of `(p, k)` is `(p, 0, k)`. -/
theorem idx_reshape (p k : Fin 4) : idx_main_v48 (ix2 p k) = ix3 p (0 : Fin 1) k :=
  funext fun a => match a with
    | ⟨0, _⟩ => Fin.ext (by have hp := p.isLt; have hk := k.isLt; show (p.val * 4 + k.val) / 4 = p.val; omega)
    | ⟨1, _⟩ => Fin.ext rfl
    | ⟨2, _⟩ => Fin.ext (by have hp := p.isLt; have hk := k.isLt; show (p.val * 4 + k.val) % 4 = k.val; omega)

/-- The broadcast mean at `(p, 0, k)` is the mean of pair `p`. -/
theorem idx_mean (p k : Fin 4) : idx_main_v40 (idx_main_v41 (ix3 p (0 : Fin 1) k)) = ix1 p :=
  funext fun a => match a with
    | ⟨0, _⟩ => Fin.ext rfl

/-- The broadcast weight at `(p, 0, k)` is the weight's entry `(0, k)`. -/
theorem idx_weight (p k : Fin 4) : idx_main_v39 (idx_main_v42 (ix3 p (0 : Fin 1) k)) = ix2 (0 : Fin 1) k :=
  funext fun a => match a with
    | ⟨0, _⟩ => Fin.ext rfl
    | ⟨1, _⟩ => Fin.ext rfl

/-- The broadcast bias at `(p, 0, k)` is the bias's entry `k`. -/
theorem idx_bias (p k : Fin 4) : idx_main_v44 (idx_main_v45 (idx_main_v46 (ix3 p (0 : Fin 1) k))) = ix1 k :=
  funext fun a => match a with
    | ⟨0, _⟩ => Fin.ext rfl

/-- The reference's result at (p, k) from pair p's mean: mean * weight k + bias k. -/
theorem ref_out (x0 : (⟨S8x512x64, .f32⟩ : BufTy).Contents (Elt Ideal)) (x1 : (⟨S1x4, .f32⟩ : BufTy).Contents (Elt Ideal))
    (x2 : (⟨S4, .f32⟩ : BufTy).Contents (Elt Ideal)) (p k : Fin 4) :
    val_main_v48 (F := Ideal) x0 x1 x2 (ix2 p k)
      = val_main_v38 (F := Ideal) x0 (ix1 p) * x1 (ix2 (0 : Fin 1) k) + x2 (ix1 k) := by
  rw [val_main_v48_apply, idx_reshape, val_main_v47_apply, val_main_v43_apply, val_main_v41_apply, val_main_v40_apply,
    val_main_v42_apply, val_main_v39_apply, val_main_v46_apply, val_main_v45_apply, val_main_v44_apply,
    idx_mean, idx_weight, idx_bias]
  simp only [Ideal.addf_def, Ideal.mulf_def]

end Cert.ReferenceIdeal.RefValue
end
-- ==== Proof.RefMean.lean ====
import proofs.«118462_j47072841564314_1_alg».proof.Proof.Gen.ReferenceIdeal.Read
import proofs.«118462_j47072841564314_1_alg».proof.Proof.Spec
import Idealize.ShloMosaic.Lib.ValueIdx
import Idealize.ShloMosaic.PureOps.Ideal.Laws
noncomputable section
namespace Cert.ReferenceIdeal.RefValue
open Cert.ReferenceIdeal Cert.ReferenceIdeal.Gen Cert.ReferenceIdeal.Read Idealize.ShloMosaic Idealize.ShloMosaic.ValueIdx

/-! ## The index maps of the layout operations, at coordinates

Each broadcast reads its operand at the index with the inserted unit axis set to zero or removed; each
one-axis sum reads its operand at the index with the summed coordinate inserted. -/

theorem idx14_ix (p : Fin 4) (i j : Fin 512) : idx_main_v14 (ix3 p i j) = ix3 p i (0 : Fin 1) := by
  funext a; match a with | ⟨0, _⟩ => rfl | ⟨1, _⟩ => rfl | ⟨2, _⟩ => rfl
theorem idx13_ix (p : Fin 4) (i : Fin 512) : idx_main_v13 (ix3 p i (0 : Fin 1)) = ix2 p i := by
  funext a; match a with | ⟨0, _⟩ => rfl | ⟨1, _⟩ => rfl
theorem idx19_ix (p : Fin 4) (i j : Fin 512) : idx_main_v19 (ix3 p i j) = ix3 p i (0 : Fin 1) := by
  funext a; match a with | ⟨0, _⟩ => rfl | ⟨1, _⟩ => rfl | ⟨2, _⟩ => rfl
theorem idx18_ix (p : Fin 4) (i : Fin 512) : idx_main_v18 (ix3 p i (0 : Fin 1)) = ix2 p i := by
  funext a; match a with | ⟨0, _⟩ => rfl | ⟨1, _⟩ => rfl
theorem idx17_ix (p : Fin 4) (i k : Fin 512) : idx_main_v17 (ix2 p i) k = ix3 p i k := by
  funext a; match a with | ⟨0, _⟩ => rfl | ⟨1, _⟩ => rfl | ⟨2, _⟩ => rfl
theorem idx25_ix (p : Fin 4) (i j : Fin 512) : idx_main_v25 (ix3 p i j) = ix3 p (0 : Fin 1) j := by
  funext a; match a with | ⟨0, _⟩ => rfl | ⟨1, _⟩ => rfl | ⟨2, _⟩ => rfl
theorem idx24_ix (p : Fin 4) (j : Fin 512) : idx_main_v24 (ix3 p (0 : Fin 1) j) = ix2 p j := by
  funext a; match a with | ⟨0, _⟩ => rfl | ⟨1, _⟩ => rfl
theorem idx30_ix (p : Fin 4) (i j : Fin 512) : idx_main_v30 (ix3 p i j) = ix3 p (0 : Fin 1) j := by
  funext a; match a with | ⟨0, _⟩ => rfl | ⟨1, _⟩ => rfl | ⟨2, _⟩ => rfl
theorem idx29_ix (p : Fin 4) (j : Fin 512) : idx_main_v29 (ix3 p (0 : Fin 1) j) = ix2 p j := by
  funext a; match a with | ⟨0, _⟩ => rfl | ⟨1, _⟩ => rfl
theorem idx28_ix (p : Fin 4) (j k : Fin 512) : idx_main_v28 (ix2 p j) k = ix3 p k j := by
  funext a; match a with | ⟨0, _⟩ => rfl | ⟨1, _⟩ => rfl | ⟨2, _⟩ => rfl

/-! ## The two maxima -/

/-- The word of negative infinity is the bottom element of the extended reals. -/
theorem ofBits_neg_inf : Ideal.ofBits .f32 0xFF800000#32 = (⊥ : EReal) := by simp [Ideal.ofBits, Ideal.ieee]

/-- A maximum over the last axis, at `(p, i)`: the fold of `max` over `j` of the operand at `(p, i, j)`. -/
theorem reduce_max_last (y : FVec Ideal S4x512x512 .f32) (init : FVec Ideal S_ .f32) (p : Fin 4) (i : Fin 512) :
    Host.reduce (FloatOps.maximumf (F := Ideal) (φ := .f32)) y init reducesTo_S4x512x512_S4x512_d2 h_S_ (ix2 p i)
      = (Finset.univ : Finset (Fin 512)).fold max (init (Shape.Idx.first h_S_)) (fun j => y (ix3 p i j)) := by
  rw [Host.reduce_eq_fold_single (FloatOps.maximumf (F := Ideal) (φ := .f32)) y init reducesTo_S4x512x512_S4x512_d2 (by decide) h_S_ (ix2 p i)]
  refine Finset.fold_congr (fun k _ => congrArg y ?_)
  funext a; exact Fin.ext (by match a with | ⟨0, _⟩ => rfl | ⟨1, _⟩ => rfl | ⟨2, _⟩ => rfl)

/-- A maximum over the middle axis, at `(p, j)`: the fold of `max` over `i` of the operand at `(p, i, j)`. -/
theorem reduce_max_mid (y : FVec Ideal S4x512x512 .f32) (init : FVec Ideal S_ .f32) (p : Fin 4) (j : Fin 512) :
    Host.reduce (FloatOps.maximumf (F := Ideal) (φ := .f32)) y init reducesTo_S4x512x512_S4x512_d1 h_S_ (ix2 p j)
      = (Finset.univ : Finset (Fin 512)).fold max (init (Shape.Idx.first h_S_)) (fun i => y (ix3 p i j)) := by
  rw [Host.reduce_eq_fold_single (FloatOps.maximumf (F := Ideal) (φ := .f32)) y init reducesTo_S4x512x512_S4x512_d1 (by decide) h_S_ (ix2 p j)]
  refine Finset.fold_congr (fun k _ => congrArg y ?_)
  funext a; exact Fin.ext (by match a with | ⟨0, _⟩ => rfl | ⟨1, _⟩ => rfl | ⟨2, _⟩ => rfl)

/-- The row maximum the reference subtracts is the fold of `max` from `⊥` over the row of scores. -/
theorem ref_rowmax (x0 : (⟨S8x512x64, .f32⟩ : BufTy).Contents (Elt Ideal)) (p : Fin 4) (i : Fin 512) :
    val_main_v12 (F := Ideal) x0 (ix2 p i)
      = Cert.Align.rowMax (fun i j => val_main_v9 (F := Ideal) x0 (ix3 p i j)) i := by
  rw [val_main_v12_apply, val_main_v11_apply, val_main_cst_1_apply]
  unfold val_main_v10
  rw [reduce_max_last, val_main_cst_0_apply]
  simp only [Ideal.maximumf_def, Ideal.ofBits_def, ofBits_neg_inf]
  unfold Cert.Align.rowMax
  exact max_bot_left _

/-- The column maximum the reference subtracts is the fold of `max` from `⊥` over the column of scores. -/
theorem ref_colmax (x0 : (⟨S8x512x64, .f32⟩ : BufTy).Contents (Elt Ideal)) (p : Fin 4) (j : Fin 512) :
    val_main_v23 (F := Ideal) x0 (ix2 p j)
      = Cert.Align.colMax (fun i j => val_main_v9 (F := Ideal) x0 (ix3 p i j)) j := by
  rw [val_main_v23_apply, val_main_v22_apply, val_main_cst_4_apply]
  unfold val_main_v21
  rw [reduce_max_mid, val_main_cst_3_apply]
  simp only [Ideal.maximumf_def, Ideal.ofBits_def, ofBits_neg_inf]
  unfold Cert.Align.colMax
  exact max_bot_left _

/-! ## The two softmaxes -/

/-- The exponential under the row softmax. -/
theorem ref_rowexp (x0 : (⟨S8x512x64, .f32⟩ : BufTy).Contents (Elt Ideal)) (p : Fin 4) (i j : Fin 512) :
    val_main_v16 (F := Ideal) x0 (ix3 p i j)
      = Ideal.exp (val_main_v9 (F := Ideal) x0 (ix3 p i j)
          - Cert.Align.rowMax (fun i j => val_main_v9 (F := Ideal) x0 (ix3 p i j)) i) := by
  rw [val_main_v16_apply, val_main_v15_apply, val_main_v14_apply, idx14_ix, val_main_v13_apply, idx13_ix, ref_rowmax]
  rfl

/-- The exponential under the column softmax. -/
theorem ref_colexp (x0 : (⟨S8x512x64, .f32⟩ : BufTy).Contents (Elt Ideal)) (p : Fin 4) (i j : Fin 512) :
    val_main_v27 (F := Ideal) x0 (ix3 p i j)
      = Ideal.exp (val_main_v9 (F := Ideal) x0 (ix3 p i j)
          - Cert.Align.colMax (fun i j => val_main_v9 (F := Ideal) x0 (ix3 p i j)) j) := by
  rw [val_main_v27_apply, val_main_v26_apply, val_main_v25_apply, idx25_ix, val_main_v24_apply, idx24_ix, ref_colmax]
  rfl

/-- The reference's row softmax of pair `p`'s scores. -/
theorem ref_rowsoft (x0 : (⟨S8x512x64, .f32⟩ : BufTy).Contents (Elt Ideal)) (p : Fin 4) (i j : Fin 512) :
    val_main_v20 (F := Ideal) x0 (ix3 p i j)
      = Cert.Align.rowSoft (fun i j => val_main_v9 (F := Ideal) x0 (ix3 p i j)) i j := by
  rw [val_main_v20_apply, val_main_v19_apply, idx19_ix, val_main_v18_apply, idx18_ix, val_main_v17_apply,
    val_main_cst_2_apply]
  simp only [idx17_ix, ref_rowexp, Ideal.hostDivf_def, Ideal.ofBits_def, Ideal.ofBits_zero_f32, zero_add]
  rfl

/-- The reference's column softmax of pair `p`'s scores. -/
theorem ref_colsoft (x0 : (⟨S8x512x64, .f32⟩ : BufTy).Contents (Elt Ideal)) (p : Fin 4) (i j : Fin 512) :
    val_main_v31 (F := Ideal) x0 (ix3 p i j)
      = Cert.Align.colSoft (fun i j => val_main_v9 (F := Ideal) x0 (ix3 p i j)) i j := by
  rw [val_main_v31_apply, val_main_v30_apply, idx30_ix, val_main_v29_apply, idx29_ix, val_main_v28_apply,
    val_main_cst_5_apply]
  simp only [idx28_ix, ref_colexp, Ideal.hostDivf_def, Ideal.ofBits_def, Ideal.ofBits_zero_f32, zero_add]
  rfl

/-- The reference's symmetric alignment of pair `p`. -/
theorem ref_align (x0 : (⟨S8x512x64, .f32⟩ : BufTy).Contents (Elt Ideal)) (p : Fin 4) (i j : Fin 512) :
    val_main_v34 (F := Ideal) x0 (ix3 p i j)
      = Cert.Align.align (fun i j => val_main_v9 (F := Ideal) x0 (ix3 p i j)) i j := by
  rw [val_main_v34_apply, val_main_v32_apply, val_main_v33_apply, ref_rowsoft, ref_colsoft]
  rfl

/-! ## The two totals -/

/-- Dropping the two summed axes keeps the pair coordinate. -/
theorem drop_pair_val (i : S4x512x512.Idx) :
    ((reducesTo_S4x512x512_S4_d1_2.drop i ⟨0, Nat.one_pos⟩ : Fin 4) : Nat) = (i 0 : Nat) :=
  Shape.ReducesTo.drop_apply_val_of_eq reducesTo_S4x512x512_S4_d1_2 i ⟨0, Nat.one_pos⟩ 0

/-- A sum over the last two axes, at pair `p`: the initial value plus the double sum over the two
    coordinates. The indices that drop to `p` are exactly `(p, a, b)`, one for each pair `(a, b)`. -/
theorem sum_pair (y : FVec Ideal S4x512x512 .f32) (init : EReal) (p : Fin 4) :
    Ideal.hostReduceAdd reducesTo_S4x512x512_S4_d1_2 y init (ix1 p)
      = init + ∑ a : Fin 512, ∑ b : Fin 512, y (ix3 p a b) := by
  unfold Ideal.hostReduceAdd
  refine congrArg (init + ·) ?_
  refine Eq.trans ?_ (Fintype.sum_prod_type' (fun a b : Fin 512 => y (ix3 p a b)))
  have hback : ∀ i : S4x512x512.Idx, reducesTo_S4x512x512_S4_d1_2.drop i = ix1 p →
      ix3 p (⟨(i 1).val, (i 1).isLt⟩ : Fin 512) (⟨(i 2).val, (i 2).isLt⟩ : Fin 512) = i := by
    intro i hi
    have h0 : (i 0 : Nat) = p.val := by
      rw [← drop_pair_val i, hi]
    funext a
    match a with
    | ⟨0, _⟩ => exact Fin.ext h0.symm
    | ⟨1, _⟩ => rfl
    | ⟨2, _⟩ => rfl
  refine Finset.sum_nbij'
    (fun i => ((⟨(i 1).val, (i 1).isLt⟩ : Fin 512), (⟨(i 2).val, (i 2).isLt⟩ : Fin 512)))
    (fun ab => ix3 p ab.1 ab.2) ?_ ?_ ?_ ?_ ?_
  · intro i _; exact Finset.mem_univ _
  · intro ab _
    refine Finset.mem_filter.2 ⟨Finset.mem_univ _, ?_⟩
    funext c
    match c with
    | ⟨0, _⟩ => exact Fin.ext (drop_pair_val (ix3 p ab.1 ab.2))
  · intro i hi; exact hback i (Finset.mem_filter.1 hi).2
  · intro ab _; rfl
  · intro i hi; exact congrArg y (hback i (Finset.mem_filter.1 hi).2).symm

/-- The numerator total: the double sum of alignment times score. -/
theorem ref_num (x0 : (⟨S8x512x64, .f32⟩ : BufTy).Contents (Elt Ideal)) (p : Fin 4) :
    val_main_v36 (F := Ideal) x0 (ix1 p)
      = ∑ a : Fin 512, ∑ b : Fin 512, val_main_v35 (F := Ideal) x0 (ix3 p a b) := by
  unfold val_main_v36
  generalize val_main_v35 (F := Ideal) x0 = y
  simp only [Host.reduceAdd, Ideal.hostReduceAdd_def]
  rw [sum_pair, val_main_cst_6_apply]
  simp only [Ideal.ofBits_def, Ideal.ofBits_zero_f32, zero_add]

/-- The denominator total: the double sum of the alignment. -/
theorem ref_den (x0 : (⟨S8x512x64, .f32⟩ : BufTy).Contents (Elt Ideal)) (p : Fin 4) :
    val_main_v37 (F := Ideal) x0 (ix1 p)
      = ∑ a : Fin 512, ∑ b : Fin 512, val_main_v34 (F := Ideal) x0 (ix3 p a b) := by
  unfold val_main_v37
  generalize val_main_v34 (F := Ideal) x0 = y
  simp only [Host.reduceAdd, Ideal.hostReduceAdd_def]
  rw [sum_pair, val_main_cst_7_apply]
  simp only [Ideal.ofBits_def, Ideal.ofBits_zero_f32, zero_add]

/-- The reference's mean for pair p is the alignment-weighted mean of pair p's scores. -/
theorem ref_mean (x0 : (⟨S8x512x64, .f32⟩ : BufTy).Contents (Elt Ideal)) (p : Fin 4) :
    val_main_v38 (F := Ideal) x0 (ix1 p) = Cert.Align.cval (fun i j => val_main_v9 (F := Ideal) x0 (ix3 p i j)) := by
  rw [val_main_v38_apply, ref_num, ref_den]
  simp only [val_main_v35_apply, ref_align, Ideal.hostDivf_def, Ideal.mulf_def]
  rfl

end Cert.ReferenceIdeal.RefValue
end
-- ==== Proof.RefResult.lean ====
/-
  The reference's result array, whole: `Cert.Align.result` of its three arguments. Entry `(p, k)` is pair `p`'s
  mean times `weight k` plus `bias k` (the program's last stages), the mean is the alignment-weighted mean of
  the pair's scores (the middle stages), and the scores are minus the L1 distances (the first stages).
-/
import proofs.«118462_j47072841564314_1_alg».proof.Proof.RefEnds
import proofs.«118462_j47072841564314_1_alg».proof.Proof.RefMean
import proofs.«118462_j47072841564314_1_alg».proof.Proof.Result

noncomputable section

namespace Cert.ReferenceIdeal.RefValue

open Cert.ReferenceIdeal Cert.ReferenceIdeal.Gen Cert.ReferenceIdeal.Read Idealize.ShloMosaic Idealize.ShloMosaic.ValueIdx

theorem ref_result (x0 : (⟨S8x512x64, .f32⟩ : BufTy).Contents (Elt Ideal)) (x1 : (⟨S1x4, .f32⟩ : BufTy).Contents (Elt Ideal))
    (x2 : (⟨S4, .f32⟩ : BufTy).Contents (Elt Ideal)) :
    val_main_v48 (F := Ideal) x0 x1 x2 = Cert.Align.result x0 x1 x2 := by
  funext y
  obtain ⟨p, k, rfl⟩ : ∃ (p k : Fin 4), y = ix2 p k := ⟨⟨(y 0).val, idx2_lt0 y⟩, ⟨(y 1).val, idx2_lt1 y⟩, eq_ix2 y⟩
  rw [ref_out, ref_mean, Cert.Align.result_apply]
  unfold Cert.Align.pairOut
  have hS : (fun (i j : Fin 512) => val_main_v9 (F := Ideal) x0 (ix3 p i j))
      = fun (i j : Fin 512) => -(Cert.Align.dist (fun i d => x0 (ix3 (Cert.Align.lo p) i d)) (fun j d => x0 (ix3 (Cert.Align.hi p) j d)) i j) := by
    funext i j
    exact ref_score x0 p i j
  rw [hS]

end Cert.ReferenceIdeal.RefValue

end
-- ==== Proof.lean ====
/-
  The certificate of a soft symmetric alignment head: kernel and reference compute, for each of four pairs of
  sequences `(X, Y)` (row blocks `p` and `4 + p` of the sequences argument, each 512 × 64), the score matrix
  `S i j = -(∑ d, |X i d - Y j d|)`, its row softmax `a` and column softmax `b` (each with its maximum
  subtracted), the alignment `c = a + b - a * b`, the mean `(∑ c * S) / (∑ c)`, and `mean * weight + bias`.

  The two programs differ only in arrangement: the kernel accumulates the 64 features one at a time from zero
  over a transposed second block, takes `0 - total` for the negation, a maximum from `-∞` directly, and each
  double sum as a sum along the lanes then along the sublanes; the reference broadcasts to 4 × 512 × 512 × 64 and
  reduces, negates, takes one more maximum with `-∞`, and sums over both axes at once. On the extended reals
  `0 + x = x`, `0 - x = -x`, `max ⊥ x = x`, and a finite sum may be taken in any order, so both result arrays
  are ONE function of the arguments, `Cert.Align.result`; finiteness of the inputs is never used.
  The frames are the generated ones; the idealization rewrote nothing, so `preserves` is `True`.
-/
import proofs.«118462_j47072841564314_1_alg».proof.Defs
import proofs.«118462_j47072841564314_1_alg».proof.Proof.Gen.Kernel
import proofs.«118462_j47072841564314_1_alg».proof.Proof.Gen.Kernel.Skeleton
import proofs.«118462_j47072841564314_1_alg».proof.Proof.Gen.Kernel.Launch
import proofs.«118462_j47072841564314_1_alg».proof.Proof.Gen.Kernel.Points
import proofs.«118462_j47072841564314_1_alg».proof.Proof.Gen.Kernel.Frame
import proofs.«118462_j47072841564314_1_alg».proof.Proof.Gen.KernelIdeal
import proofs.«118462_j47072841564314_1_alg».proof.Proof.Gen.KernelIdeal.Skeleton
import proofs.«118462_j47072841564314_1_alg».proof.Proof.Gen.KernelIdeal.Launch
import proofs.«118462_j47072841564314_1_alg».proof.Proof.Gen.KernelIdeal.Points
import proofs.«118462_j47072841564314_1_alg».proof.Proof.Gen.KernelIdeal.Frame
import proofs.«118462_j47072841564314_1_alg».proof.Proof.Gen.ReferenceIdeal
import proofs.«118462_j47072841564314_1_alg».proof.Proof.Gen.Pre_finite_inputs
import proofs.«118462_j47072841564314_1_alg».proof.Proof.Gen.KernelIdeal.Value
import proofs.«118462_j47072841564314_1_alg».proof.Proof.Gen.ReferenceIdeal.Run
import proofs.«118462_j47072841564314_1_alg».proof.Proof.Gen.ReferenceIdeal.Read
import proofs.«118462_j47072841564314_1_alg».proof.Proof.KernelValue
import proofs.«118462_j47072841564314_1_alg».proof.Proof.RefResult
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference is a host program: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `Cert.Align.result` of the (agreeing) arguments. -/
theorem algebraic : Cert.algebraic_KernelIdeal_ReferenceIdeal := by
  intro m ρ m' ρ' _ hagree
  refine ⟨fun c => Cert.KernelIdeal.Hand.kres m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.ReferenceIdeal.RefValue.ref_result, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
